-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4096 : Shape := ⟨2, ![50000, 4096]⟩
abbrev S50000x64 : Shape := ⟨2, ![50000, 64]⟩
abbrev S256x4096 : Shape := ⟨2, ![256, 4096]⟩
abbrev S256 : Shape := ⟨1, ![256]⟩
abbrev S256x256 : Shape := ⟨2, ![256, 256]⟩
abbrev S64x256 : Shape := ⟨2, ![64, 256]⟩
abbrev S64 : Shape := ⟨1, ![64]⟩
abbrev S64x64 : Shape := ⟨2, ![64, 64]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x4096 : S_.BroadcastsInDim S50000x4096 (![] : Fin 0 → Fin S50000x4096.rank)
  reducesTo_S50000x4096_S_d0_1 : S50000x4096.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg14 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![0, 0] · slices_S2x800000_S1x800000_0_0) main_arg14
  let main_v70 : IVec S800000 32 := shapeCast S800000 main_v69 shapeCasts_S1x800000_S800000
  let main_c_26 : IVec S_ 32 := constantI S_ 32 4294917296#32
  let main_v71 : IVec S800000 32 := broadcastInDim S800000 ![] bcast_S_S800000 main_c_26
  let main_v72 : IVec S800000 1 := cmpi .sge main_v70 main_v71
  let main_v73 : IVec S1x800000 32 := (extractStridedSlice S1x800000 ![0, 0] · slices_S2x800000_S1x800000_0_0) main_arg14
  let main_v74 : IVec S800000 32 := shapeCast S800000 main_v73 shapeCasts_S1x800000_S800000
  let main_c_27 : IVec S_ 32 := constantI S_ 32 50000#32
  let main_v75 : IVec S800000 32 := broadcastInDim S800000 ![] bcast_S_S800000 main_c_27
  let main_v76 : IVec S800000 1 := cmpi .slt main_v74 main_v75
  let main_v77 : IVec S800000 1 := andi main_v72 main_v76
  let main_c_28 : IVec S_ 1 := constantI S_ 1 1#1
  let main_v78 : IVec S_ 1 := (fun x v => Host.reduce IntOp.andi x v reducesTo_S800000_S_d0 h_S_) main_v77 main_c_28
  let main_v79 : IVec S_ 1 := andi main_v68 main_v78
  main_v79

def fn_part3 {F : FTy → Type} [FloatOps F] (main_arg11 : FVec F S64 .f32) (main_arg12 : FVec F S64x64 .f32) (main_arg13 : FVec F S64 .f32) (main_arg14 : IVec S2x800000 32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_v63 main_v67

def fn_part2 {F : FTy → Type} [FloatOps F] (main_arg7 : FVec F S64x256 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_arg14 : IVec S2x800000 32) (main_v33 : IVec S_ 1) : IVec S_ 1 :=
  let main_v34 : FVec F S64x256 .f32 := Host.absf main_arg7
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_v48 main_v49 main_v50

def fn_part1 {F : FTy → Type} [FloatOps F] (main_arg4 : FVec F S256x256 .f32) (main_arg5 : FVec F S64x256 .f32) (main_arg6 : FVec F S64 .f32) (main_arg7 : FVec F S64x256 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_arg14 : IVec S2x800000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x4096 .f32) (main_arg1 : FVec F S50000x64 .f32) (main_arg2 : FVec F S256x4096 .f32) (main_arg3 : FVec F S256 .f32) (main_arg4 : FVec F S256x256 .f32) (main_arg5 : FVec F S64x256 .f32) (main_arg6 : FVec F S64 .f32) (main_arg7 : FVec F S64x256 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_arg14 : IVec S2x800000 32) : IVec S_ 1 :=
  let main_v0 : FVec F S50000x4096 .f32 := Host.absf main_arg0
  let main_cst : FVec F S_ .f32 := constant S_ .f32 0x7F800000#32
  let main_v1 : FVec F S50000x4096 .f32 := broadcastInDim S50000x4096 ![] bcast_S_S50000x4096 main_cst
  let main_v2 : IVec S50000x4096 1 := cmpf .olt main_v0 main_v1
  let main_c : IVec S_ 1 := constantI S_ 1 1#1
  let main_v3 : IVec S_ 1 := (fun x v => Host.reduce IntOp.andi x v reducesTo_S50000x4096_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x4096 : Shape := ⟨2, ![50000, 4096]⟩
abbrev S50000x64 : Shape := ⟨2, ![50000, 64]⟩
abbrev S256x4096 : Shape := ⟨2, ![256, 4096]⟩
abbrev S256 : Shape := ⟨1, ![256]⟩
abbrev S256x256 : Shape := ⟨2, ![256, 256]⟩
abbrev S64x256 : Shape := ⟨2, ![64, 256]⟩
abbrev S64 : Shape := ⟨1, ![64]⟩
abbrev S64x64 : Shape := ⟨2, ![64, 64]⟩
abbrev S2x800000 : Shape := ⟨2, ![2, 800000]⟩
abbrev S1x800000 : Shape := ⟨2, ![1, 800000]⟩
abbrev S800000 : Shape := ⟨1, ![800000]⟩
abbrev S4096x256 : Shape := ⟨2, ![4096, 256]⟩
abbrev S1x256 : Shape := ⟨2, ![1, 256]⟩
abbrev S50000x256 : Shape := ⟨2, ![50000, 256]⟩
abbrev S400x4096 : Shape := ⟨2, ![400, 4096]⟩
abbrev S400x256 : Shape := ⟨2, ![400, 256]⟩
abbrev S400 : Shape := ⟨1, ![400]⟩
abbrev S400x1 : Shape := ⟨2, ![400, 1]⟩
abbrev S2000x256 : Shape := ⟨2, ![2000, 256]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S256x64 : Shape := ⟨2, ![256, 64]⟩
abbrev S1x64 : Shape := ⟨2, ![1, 64]⟩
abbrev S2000x64 : Shape := ⟨2, ![2000, 64]⟩
abbrev S800000x64 : Shape := ⟨2, ![800000, 64]⟩

abbrev nBuf : Space → Nat
  | .hbm => 99
  | .vmem => 48
  | .smem => 0
  | _ => 0

abbrev bufTy : (tb : Table) → Fin (tcTables nBuf tb) → BufTy
  | .hbm, ⟨0, _⟩ => ⟨S50000x4096, .f32⟩
  | .hbm, ⟨1, _⟩ => ⟨S50000x64, .f32⟩
  | .hbm, ⟨2, _⟩ => ⟨S256x4096, .f32⟩
  | .hbm, ⟨3, _⟩ => ⟨S256, .f32⟩
  | .hbm, ⟨4, _⟩ => ⟨S256x256, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S2x800000, .i32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S4096x256, .f32⟩
  | .hbm, ⟨20, _⟩ => ⟨S4096x256, .bf16⟩
  | .hbm, ⟨21, _⟩ => ⟨S1x256, .f32⟩
  | .hbm, ⟨22, _⟩ => ⟨S50000x256, .f32⟩
  | .hbm, ⟨23, _⟩ => ⟨S256x256, .f32⟩
  | .hbm, ⟨24, _⟩ => ⟨S256x256, .bf16⟩
  | .hbm, ⟨25, _⟩ => ⟨S50000x256, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S1, .i32⟩
  | .hbm, ⟨35, _⟩ => ⟨S_, .i32⟩
  | .hbm, ⟨36, _⟩ => ⟨S800000x1, .i32⟩
  | .hbm, ⟨37, _⟩ => ⟨S800000x1, .i1⟩
  | .hbm, ⟨38, _⟩ => ⟨S1x1, .i32⟩
  | .hbm, ⟨39, _⟩ => ⟨S800000x1, .i32⟩
  | .hbm, ⟨40, _⟩ => ⟨S800000x1, .i1⟩
  | .hbm, ⟨41, _⟩ => ⟨S800000x1, .i1⟩
  | .hbm, ⟨42, _⟩ => ⟨S_, .i1⟩
  | .hbm, ⟨43, _⟩ => ⟨S800000, .i1⟩
  | .hbm, ⟨44, _⟩ => ⟨S800000x256, .f32⟩
  | .hbm, ⟨45, _⟩ => ⟨S800000x256, .i1⟩
  | .hbm, ⟨46, _⟩ => ⟨S_, .f32⟩
  | .hbm, ⟨47, _⟩ => ⟨S800000x256, .f32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S256x64, .f32⟩
  | .hbm, ⟨54, _⟩ => ⟨S256x64, .bf16⟩
  | .hbm, ⟨55, _⟩ => ⟨S1x64, .f32⟩
  | .hbm, ⟨56, _⟩ => ⟨S50000x64, .f32⟩
  | .hbm, ⟨57, _⟩ => ⟨S256x64, .f32⟩
  | .hbm, ⟨58, _⟩ => ⟨S256x64, .bf16⟩
  | .hbm, ⟨59, _⟩ => ⟨S1x64, .f32⟩
  | .hbm, ⟨60, _⟩ => ⟨S50000x64, .f32⟩
  | .hbm, ⟨61, _⟩ => ⟨S64x64, .f32⟩
  | .hbm, ⟨62, _⟩ => ⟨S64x64, .bf16⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S1, .i32⟩
  | .hbm, ⟨73, _⟩ => ⟨S_, .i32⟩
  | .hbm, ⟨74, _⟩ => ⟨S800000x1, .i32⟩
  | .hbm, ⟨75, _⟩ => ⟨S800000x1, .i1⟩
  | .hbm, ⟨76, _⟩ => ⟨S1x1, .i32⟩
  | .hbm, ⟨77, _⟩ => ⟨S800000x1, .i32⟩
  | .hbm, ⟨78, _⟩ => ⟨S800000x1, .i1⟩
  | .hbm, ⟨79, _⟩ => ⟨S800000x1, .i1⟩
  | .hbm, ⟨80, _⟩ => ⟨S_, .i1⟩
  | .hbm, ⟨81, _⟩ => ⟨S800000, .i1⟩
  | .hbm, ⟨82, _⟩ => ⟨S800000x64, .f32⟩
  | .hbm, ⟨83, _⟩ => ⟨S800000x64, .i1⟩
  | .hbm, ⟨84, _⟩ => ⟨S_, .f32⟩
  | .hbm, ⟨85, _⟩ => ⟨S800000x64, .f32⟩
  | .hbm, ⟨86, _⟩ => ⟨S800000x64, .f32⟩
  | .hbm, ⟨87, _⟩ => ⟨S_, .f32⟩
  | .hbm, ⟨88, _⟩ => ⟨S50000x64, .f32⟩
  | .hbm, ⟨89, _⟩ => ⟨S800000x1, .i32⟩
  | .hbm, ⟨90, _⟩ => ⟨S50000x64, .f32⟩
  | .hbm, ⟨91, _⟩ => ⟨S64x64, .f32⟩
  | .hbm, ⟨92, _⟩ => ⟨S64x64, .bf16⟩
  | .hbm, ⟨93, _⟩ => ⟨S1x64, .f32⟩
  | .hbm, ⟨94, _⟩ => ⟨S50000x64, .f32⟩
  | .hbm, ⟨95, _⟩ => ⟨S64x64, .f32⟩
  | .hbm, ⟨96, _⟩ => ⟨S64x64, .bf16⟩
  | .hbm, ⟨97, _⟩ => ⟨S1x64, .f32⟩
  | .hbm, ⟨98, _⟩ => ⟨S50000x64, .f32⟩
  | .local _ .vmem, ⟨0, _⟩ => ⟨S400x4096, .f32⟩
  | .local _ .vmem, ⟨1, _⟩ => ⟨S400x4096, .f32⟩
  | .local _ .vmem, ⟨2, _⟩ => ⟨S4096x256, .bf16⟩
  | .local _ .vmem, ⟨3, _⟩ => ⟨S1x256, .f32⟩
  | .local _ .vmem, ⟨4, _⟩ => ⟨S400x256, .f32⟩
  | .local _ .vmem, ⟨5, _⟩ => ⟨S400x256, .f32⟩
  | .local _ .vmem, ⟨6, _⟩ => ⟨S2000x256, .f32⟩
  | .local _ .vmem, ⟨7, _⟩ => ⟨S2000x256, .f32⟩
  | .local _ .vmem, ⟨8, _⟩ => ⟨S256x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x64, .bf16⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x256, .f32⟩
  | .local _ .vmem, ⟨20, _⟩ => ⟨S2000x256, .f32⟩
  | .local _ .vmem, ⟨21, _⟩ => ⟨S256x64, .bf16⟩
  | .local _ .vmem, ⟨22, _⟩ => ⟨S1x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S64x64, .bf16⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x64, .bf16⟩
  | .local _ .vmem, ⟨35, _⟩ => ⟨S1x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S64x64, .bf16⟩
  | .local _ .vmem, ⟨43, _⟩ => ⟨S1x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | _, _ => ⟨S50000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v11 : Ref sig .tc := ⟨.hbm, 48, rfl⟩
abbrev main_cst : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v26 : Ref sig .tc := ⟨.hbm, 86, rfl⟩
abbrev main_cst_0 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc6_sem4_0 : DmaSem sig := 46
abbrev cc6_sem4_1 : DmaSem sig := 47

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x4096_S4096x256_1_0 : S256x4096.Transposes [1, 0] S4096x256
  bitsLt_bf16_f32 : FTy.bits .bf16 < FTy.bits .f32
  shapeCasts_S256_S1x256 : S256.ShapeCasts S1x256
  inb_S400x4096_S400x4096_0_0 : ∀ a, (![0, 0] : Fin 2 → Nat) a + S400x4096.size a ≤ S400x4096.size a
  h_S400x4096 : 0 < S400x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  reduces_S400x256_S400 : S400x256.Reduces [1] S400
  shapeCasts_S400_S400x1 : S400.ShapeCasts S400x1
  broadcasts_S400x1_S400x256 : S400x1.Broadcasts S400x256
  inb_S400x256_S400x256_0_0 : ∀ a, (![0, 0] : Fin 2 → Nat) a + S400x256.size a ≤ S400x256.size a
  h_S400x256 : 0 < S400x256.numel
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  transposes_S64x256_S256x64_1_0 : S64x256.Transposes [1, 0] S256x64
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  dot_S400x4096_S4096x256_S400x256_1_0_0_1_n_n_wf : DotDims.WF S400x4096 S4096x256 S400x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x4096.size a ≤ S50000x4096.size a
  hwx0_0 : ∀ i : grid0.Coords, EltTy.bits .f32 = 32 ∨ (Rect.block (s := S50000x4096) S400x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S50000x256.size a
  hwx0_3 : ∀ i : grid0.Coords, EltTy.bits .f32 = 32 ∨ (Rect.block (s := S50000x256) S400x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .bf16 = 32 ∨ (Rect.block (s := S256x64) S256x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .bf16 = 32 ∨ (Rect.block (s := S256x64) S256x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .bf16 = 32 ∨ (Rect.block (s := S64x64) S64x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .bf16 = 32 ∨ (Rect.block (s := S64x64) S64x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .bf16 = 32 ∨ (Rect.block (s := S64x64) S64x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)

variable [Facts₀]

def dot_S400x4096_S4096x256_S400x256_1_0_0_1_n_n : DotDims S400x4096 S4096x256 S400x256 where
  lhsContracting := [1]
  rhsContracting := [0]
  lhsNonContracting := [0]
  rhsNonContracting := [1]
  lhsBatch := []
  rhsBatch := []
  wf := dot_S400x4096_S4096x256_S400x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S400x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v14) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S256x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v22) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v22) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v25) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v22) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg1) S2000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v33) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v29) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v35) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v36) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v33) S2000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v37) S2000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x4096 : Shape := ⟨2, ![50000, 4096]⟩
abbrev S50000x64 : Shape := ⟨2, ![50000, 64]⟩
abbrev S256x4096 : Shape := ⟨2, ![256, 4096]⟩
abbrev S256 : Shape := ⟨1, ![256]⟩
abbrev S256x256 : Shape := ⟨2, ![256, 256]⟩
abbrev S64x256 : Shape := ⟨2, ![64, 256]⟩
abbrev S64 : Shape := ⟨1, ![64]⟩
abbrev S64x64 : Shape := ⟨2, ![64, 64]⟩
abbrev S2x800000 : Shape := ⟨2, ![2, 800000]⟩
abbrev S4096x256 : Shape := ⟨2, ![4096, 256]⟩
abbrev S50000x256 : Shape := ⟨2, ![50000, 256]⟩
abbrev S1x256 : Shape := ⟨2, ![1, 256]⟩
abbrev S_ : Shape := ⟨0, ![]⟩
abbrev S50000 : Shape := ⟨1, ![50000]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩
abbrev S256x64 : Shape := ⟨2, ![256, 64]⟩
abbrev S1x64 : Shape := ⟨2, ![1, 64]⟩
abbrev S800000x64 : Shape := ⟨2, ![800000, 64]⟩

abbrev nBuf : Space → Nat
  | .hbm => 134
  | .vmem => 0
  | .smem => 0
  | _ => 0

abbrev hbmTy0_0 (i : Nat) : BufTy := match i % 128 with
  | 0 => ⟨S50000x4096, .f32⟩
  | 1 => ⟨S50000x64, .f32⟩
  | 2 => ⟨S256x4096, .f32⟩
  | 3 => ⟨S256, .f32⟩
  | 4 => ⟨S256x256, .f32⟩
  | 5 => ⟨S64x256, .f32⟩
  | 6 => ⟨S64, .f32⟩
  | 7 => ⟨S64x256, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64, .f32⟩
  | 14 => ⟨S2x800000, .i32⟩
  | 15 => ⟨S4096x256, .f32⟩
  | 16 => ⟨S50000x256, .f32⟩
  | 17 => ⟨S1x256, .f32⟩
  | 18 => ⟨S50000x256, .f32⟩
  | 19 => ⟨S50000x256, .f32⟩
  | 20 => ⟨S50000x256, .f32⟩
  | 21 => ⟨S_, .f32⟩
  | 22 => ⟨S50000, .f32⟩
  | 23 => ⟨S50000x1, .f32⟩
  | 24 => ⟨S50000x1, .f32⟩
  | 25 => ⟨S_, .f32⟩
  | 26 => ⟨S50000x1, .f32⟩
  | 27 => ⟨S50000x1, .f32⟩
  | 28 => ⟨S50000x256, .f32⟩
  | 29 => ⟨S50000x256, .f32⟩
  | 30 => ⟨S256x256, .f32⟩
  | 31 => ⟨S50000x256, .f32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x256, .f32⟩
  | 45 => ⟨S_, .f32⟩
  | 46 => ⟨S50000x256, .f32⟩
  | 47 => ⟨S800000x1, .i32⟩
  | 48 => ⟨S50000x256, .f32⟩
  | 49 => ⟨S_, .f32⟩
  | 50 => ⟨S50000x256, .f32⟩
  | 51 => ⟨S50000x256, .i1⟩
  | 52 => ⟨S_, .f32⟩
  | 53 => ⟨S50000x256, .f32⟩
  | 54 => ⟨S50000x256, .f32⟩
  | 55 => ⟨S50000x256, .f32⟩
  | 56 => ⟨S256x64, .f32⟩
  | 57 => ⟨S50000x64, .f32⟩
  | 58 => ⟨S1x64, .f32⟩
  | 59 => ⟨S50000x64, .f32⟩
  | 60 => ⟨S50000x64, .f32⟩
  | 61 => ⟨S_, .f32⟩
  | 62 => ⟨S50000x64, .f32⟩
  | 63 => ⟨S50000x64, .i1⟩
  | 64 => ⟨S_, .f32⟩
  | 65 => ⟨S50000x64, .f32⟩
  | 66 => ⟨S50000x64, .f32⟩
  | 67 => ⟨S50000x64, .f32⟩
  | 68 => ⟨S50000x64, .f32⟩
  | 69 => ⟨S256x64, .f32⟩
  | 70 => ⟨S50000x64, .f32⟩
  | 71 => ⟨S1x64, .f32⟩
  | 72 => ⟨S50000x64, .f32⟩
  | 73 => ⟨S50000x64, .f32⟩
  | 74 => ⟨S50000x64, .f32⟩
  | 75 => ⟨S_, .f32⟩
  | 76 => ⟨S50000x64, .f32⟩
  | 77 => ⟨S50000x64, .i1⟩
  | 78 => ⟨S_, .f32⟩
  | 79 => ⟨S50000x64, .f32⟩
  | 80 => ⟨S50000x64, .f32⟩
  | 81 => ⟨S50000x64, .f32⟩
  | 82 => ⟨S64x64, .f32⟩
  | 83 => ⟨S50000x64, .f32⟩
  | 84 => ⟨S1x800000, .i32⟩
  | 85 => ⟨S800000, .i32⟩
  | 86 => ⟨S1x800000, .i32⟩
  | 87 => ⟨S800000, .i32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S_, .f32⟩
  | 102 => ⟨S50000x64, .f32⟩
  | 103 => ⟨S50000x64, .i1⟩
  | 104 => ⟨S_, .f32⟩
  | 105 => ⟨S50000x64, .f32⟩
  | 106 => ⟨S50000x64, .f32⟩
  | 107 => ⟨S50000x64, .f32⟩
  | 108 => ⟨S64x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .i1⟩
  | 116 => ⟨S_, .f32⟩
  | 117 => ⟨S50000x64, .f32⟩
  | 118 => ⟨S50000x64, .f32⟩
  | 119 => ⟨S50000x64, .f32⟩
  | 120 => ⟨S50000x64, .f32⟩
  | 121 => ⟨S64x64, .f32⟩
  | 122 => ⟨S50000x64, .f32⟩
  | 123 => ⟨S1x64, .f32⟩
  | 124 => ⟨S50000x64, .f32⟩
  | 125 => ⟨S50000x64, .f32⟩
  | 126 => ⟨S50000x64, .f32⟩
  | 127 => ⟨S_, .f32⟩
  | _ => ⟨S50000x4096, .f32⟩

abbrev hbmTy0_1 (i : Nat) : BufTy := match i % 128 with
  | 0 => ⟨S50000x64, .f32⟩
  | 1 => ⟨S50000x64, .i1⟩
  | 2 => ⟨S_, .f32⟩
  | 3 => ⟨S50000x64, .f32⟩
  | 4 => ⟨S50000x64, .f32⟩
  | 5 => ⟨S50000x64, .f32⟩
  | _ => ⟨S50000x4096, .f32⟩

abbrev hbmTy (i : Nat) : BufTy := match i / 128 with
  | 0 => hbmTy0_0 i
  | 1 => hbmTy0_1 i
  | _ => ⟨S50000x4096, .f32⟩

abbrev bufTy : (tb : Table) → Fin (tcTables nBuf tb) → BufTy
  | .hbm, ⟨i, _⟩ => hbmTy i
  | _, _ => ⟨S50000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_9 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_11 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_16 : Ref sig .tc := ⟨.hbm, 127, rfl⟩
abbrev main_v94 : Ref sig .tc := ⟨.hbm, 128, rfl⟩
abbrev main_v95 : Ref sig .tc := ⟨.hbm, 129, rfl⟩
abbrev main_cst_17 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  transposes_S256x4096_S4096x256_1_0 : S256x4096.Transposes [1, 0] S4096x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  dot_S50000x4096_S4096x256_S50000x256_1_0_0_1_n_n_wf : DotDims.WF S50000x4096 S4096x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x4096_S4096x256_S50000x256_1_0_0_1_n_n : DotDims S50000x4096 S4096x256 S50000x256 where
  lhsContracting := [1]
  rhsContracting := [0]
  lhsNonContracting := [0]
  rhsNonContracting := [1]
  lhsBatch := []
  rhsBatch := []
  wf := dot_S50000x4096_S4096x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibUnitAxis.lean ====
/-
  Index broadcasts and a conjunction over a unit axis, read at an index.

  A vector laid as a column, or repeated along columns, reads the vector's entry of the row; a scalar laid over any shape
  reads its one value; the conjunction of a one-bit column [M, 1] over its unit axis, from the initial value one, is the
  column's own bit.
-/
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

/-- A vector [M] laid as one column [M, 1], read at (p, 0): the vector at p. -/
theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

/-- A vector [M] repeated along C columns [M, C], read at (p, q): the vector at p. -/
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

/-- A scalar constant laid over a column [M, 1] or any shape reads its one value everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

/-- THE MASK'S REDUCTION. The conjunction of a one-bit column [M, 1] over its unit axis, from an initial value 1, is
    at p the column's bit at (p, 0): one element, and 1 ∧ b = b. -/
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.KTake.lean ====
/-
  The take of source rows, and the range of the edges' source words.

  Each edge carries a source word (row 0 of the edge table), read as a signed integer. The kernel's take first moves a
  negative word up by the table's length N = 50000, then fetches row min(max(w, 0), N − 1) of the table and, beside it,
  computes per edge whether the moved word w is a row number at all (0 ≤ w ≤ N − 1); where it is not, the fetched row
  is replaced by the junk word 0x7FC00000. When every source word s satisfies −N ≤ s < N — the range in which indexing a
  table of N rows from either end is defined — the moved word is s + N for s < 0 (no overflow: −N ≤ s) and s otherwise,
  so 0 ≤ w ≤ N − 1 on every edge, the bit is one everywhere and no row is replaced: the take is the plain gather.
  The precondition's last conjunct states exactly that range, as a conjunction over all edges of the two signed
  compares; it is read back here into the two integer inequalities.
-/
import proofs.«421336_j43198781063543_1_alg».proof.Defs
import proofs.«421336_j43198781063543_1_alg».proof.Proof.Gen.KernelIdeal
import proofs.«421336_j43198781063543_1_alg».proof.Proof.Gen.Pre_finite_inputs
import proofs.«421336_j43198781063543_1_alg».proof.Proof.LibUnitAxis
import Idealize.ShloMosaic.Lib.Affine
import Idealize.ShloMosaic.Lib.ReduceAll
import Idealize.ShloMosaic.Lib.ValueIdx

noncomputable section

namespace Cert.KernelIdeal.Take

open Cert.KernelIdeal Cert.KernelIdeal.Gen
open Idealize.ShloMosaic Idealize.ShloMosaic.ValueIdx

/-- The edges' source words: row 0 of the edge table. -/
def srcOf (a14 : IVec S2x800000 32) : IVec S800000 32 :=
  shapeCast S800000 (extractStridedSlice S1x800000 ![0, 0] a14 slices_S2x800000_S1x800000_0_0) shapeCasts_S1x800000_S800000

/-- Every source word, read signed, names a row of a 50000-row table, counting from either end. -/
def InRange (src : IVec S800000 32) : Prop := ∀ e : S800000.Idx, (-50000 : Int) ≤ (src e).toInt ∧ (src e).toInt < 50000

/-- A source word with a negative one moved up by the table's length. -/
def wrap (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

theorem zeros_apply (e : S800000.Idx) : broadcastInDim S800000 ![] bcast_S_S800000 (constantI S_ 32 0#32) e = 0#32 :=
  Cert.LibUnitAxis.bcast_scalar_apply bcast_S_S800000 _ e

theorem len_apply (e : S800000.Idx) : broadcastInDim S800000 ![] bcast_S_S800000 (constantI S_ 32 50000#32) e = 50000#32 :=
  Cert.LibUnitAxis.bcast_scalar_apply bcast_S_S800000 _ e

/-- Adding the table's length to a negative word no smaller than minus that length does not overflow. -/
theorem addi_len (s : BitVec 32) (h1 : (-50000 : Int) ≤ s.toInt) (h2 : s.toInt < 0) :
    (IntOp.addi s 50000#32).toInt = s.toInt + 50000 := by
  unfold IntOp.addi
  rw [BitVec.toInt_add, show (50000#32 : BitVec 32).toInt = 50000 by decide]
  have hp : ((2 ^ 32 : Nat) : Int) = 4294967296 := by norm_num
  exact Int.bmod_eq_of_le_mul_two (by rw [hp]; omega) (by rw [hp]; omega)

/-- One word: kept when it is not negative, moved up by the table's length when it is. In range, the result is a row number. -/
theorem wrap_word (s : BitVec 32) (h1 : (-50000 : Int) ≤ s.toInt) (h2 : s.toInt < 50000) :
    (0 : Int) ≤ (Scalar.select (IntOp.cmpi .slt s 0#32) (IntOp.addi s 50000#32) s).toInt
      ∧ (Scalar.select (IntOp.cmpi .slt s 0#32) (IntOp.addi s 50000#32) s).toInt ≤ 49999 := by
  by_cases hneg : IntOp.cmpi .slt s 0#32 = 1#1
  · have hlt : s.toInt < 0 := by have := IntOp.cmpi_slt.mp hneg; simpa using this
    rw [hneg, select_one, addi_len _ h1 hlt]; omega
  · have hge : ¬ s.toInt < 0 := fun hh => hneg (IntOp.cmpi_slt.mpr (by simpa using hh))
    rw [eq_zero_of_ne_one hneg, select_zero]; omega

theorem wrap_apply (src : IVec S800000 32) (e : S800000.Idx) :
    wrap src e = Scalar.select (IntOp.cmpi .slt (src e) 0#32) (IntOp.addi (src e) 50000#32) (src e) := by
  unfold wrap
  rw [select_apply]
  show Scalar.select (IntOp.cmpi .slt (src e) (broadcastInDim S800000 ![] bcast_S_S800000 (constantI S_ 32 0#32) e))
      (IntOp.addi (src e) (broadcastInDim S800000 ![] bcast_S_S800000 (constantI S_ 32 50000#32) e)) (src e) = _
  rw [zeros_apply, len_apply]

/-- Under the range property every wrapped word is a row number: between 0 and 49999. -/
theorem wrap_inb {src : IVec S800000 32} (h : InRange src) (e : S800000.Idx) :
    (0 : Int) ≤ (wrap src e).toInt ∧ (wrap src e).toInt ≤ 49999 := by
  rw [wrap_apply]; exact wrap_word _ (h e).1 (h e).2

/-- The wrapped words as a column of start indices. -/
def idxCol (src : IVec S800000 32) : IVec S800000x1 32 := broadcastInDim S800000x1 ![0] bcast_S800000_S800000x1_0 (wrap src)

/-- Per edge: is the start index a row number of the table? -/
def inb (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

theorem last_apply (j : S800000x1.Idx) : broadcastInDim S800000x1 ![0, 1] bcast_S1x1_S800000x1_0_1
    (broadcastInDim S1x1 ![1] bcast_S1_S1x1_1 (constantI S1 32 49999#32)) j = 49999#32 := by
  rfl

theorem inb_all {src : IVec S800000 32} (h : InRange src) (p : Fin 800000) : inb (idxCol src) (ix1 p) = 1#1 := by
  unfold inb
  rw [Cert.LibUnitAxis.reduce_andi_unit_apply _ (constantI S_ 1 1#1) reducesTo_S800000x1_S800000_d1 h_S_ (fun _ => rfl) p]
  show IntOp.andi
      (IntOp.cmpi .sge (idxCol src (ix2 p 0)) (broadcastInDim S800000x1 ![] bcast_S_S800000x1 (constantI S_ 32 0#32) (ix2 p 0)))
      (IntOp.cmpi .sle (idxCol src (ix2 p 0)) (broadcastInDim S800000x1 ![0, 1] bcast_S1x1_S800000x1_0_1
        (broadcastInDim S1x1 ![1] bcast_S1_S1x1_1 (constantI S1 32 49999#32)) (ix2 p 0))) = 1#1
  rw [last_apply,
    show broadcastInDim S800000x1 ![] bcast_S_S800000x1 (constantI S_ 32 0#32) (ix2 p 0) = 0#32 from
      Cert.LibUnitAxis.bcast_scalar_apply bcast_S_S800000x1 _ _,
    show idxCol src (ix2 p 0) = wrap src (ix1 p) from Cert.LibUnitAxis.bcast_col_apply bcast_S800000_S800000x1_0 _ p]
  obtain ⟨h0, h1⟩ := wrap_inb h (ix1 p)
  rw [IntOp.andi_eq_one, IntOp.cmpi_sge, IntOp.cmpi_sle]
  have hl : (49999#32 : BitVec 32).toInt = 49999 := by decide
  exact ⟨by simpa using h0, by rw [hl]; exact h1⟩

/-- The per-edge bit repeated along the columns of the gathered rows: all ones under the range property. -/
theorem mask_all {C : Nat} {src : IVec S800000 32} (hb : (⟨1, ![800000]⟩ : Shape).BroadcastsInDim ⟨2, ![800000, C]⟩ ![0])
    (h : InRange src) (i : (⟨2, ![800000, C]⟩ : Shape).Idx) :
    broadcastInDim ⟨2, ![800000, C]⟩ ![0] hb (inb (idxCol src)) i = 1#1 := by
  obtain ⟨p, q, rfl⟩ : ∃ (p : Fin 800000) (q : Fin C), i = ix2 p q := ⟨i 0, i 1, eq_ix2 i⟩
  rw [Cert.LibUnitAxis.bcast_cols_apply hb _ p q]; exact inb_all h p

/-- The first layer's take of rows: the gathered row where the start index is a row number, the junk word elsewhere. -/
def take256 {F : FTy → Type} [FloatOps F] (X : FVec F S50000x256 .f32) (src : IVec S800000 32) : FVec F S800000x256 .f32 :=
  select (broadcastInDim S800000x256 ![0] bcast_S800000_S800000x256_0 (inb (idxCol src)))
    (Host.gather gather_S50000x256_S800000x1_S800000x256_1_0_n_n_0_1_1256 X (idxCol src))
    (broadcastInDim S800000x256 ![] bcast_S_S800000x256 (constant S_ .f32 0x7FC00000#32))

/-- The second layer's take of rows. -/
def take64 {F : FTy → Type} [FloatOps F] (X : FVec F S50000x64 .f32) (src : IVec S800000 32) : FVec F S800000x64 .f32 :=
  select (broadcastInDim S800000x64 ![0] bcast_S800000_S800000x64_0 (inb (idxCol src)))
    (Host.gather gather_S50000x64_S800000x1_S800000x64_1_0_n_n_0_1_164 X (idxCol src))
    (broadcastInDim S800000x64 ![] bcast_S_S800000x64 (constant S_ .f32 0x7FC00000#32))

/-- Under the range property the take is the plain gather: no row is replaced. -/
theorem take256_eq {F : FTy → Type} [FloatOps F] {src : IVec S800000 32} (h : InRange src) (X : FVec F S50000x256 .f32) :
    take256 X src = Host.gather gather_S50000x256_S800000x1_S800000x256_1_0_n_n_0_1_1256 X (idxCol src) := by
  funext i; unfold take256; rw [select_apply, mask_all bcast_S800000_S800000x256_0 h i, select_one]

theorem take64_eq {F : FTy → Type} [FloatOps F] {src : IVec S800000 32} (h : InRange src) (X : FVec F S50000x64 .f32) :
    take64 X src = Host.gather gather_S50000x64_S800000x1_S800000x64_1_0_n_n_0_1_164 X (idxCol src) := by
  funext i; unfold take64; rw [select_apply, mask_all bcast_S800000_S800000x64_0 h i, select_one]

instance : Subsingleton Cert.Pre_finite_inputs.S_.Idx := ⟨fun a b => funext fun d => d.elim0⟩

/-- The precondition's last conjunct, read: the source words of the launch memory are in range. -/
theorem inRange_of_pre (m : (ℓ : Loc nD τ sig) → Buf (Elt Ideal) ℓ) (hpre : Cert.Pre_KernelIdeal m) (c : Dev nD) :
    InRange (srcOf (m ((c.tc : Thread nD τ).loc main_arg14))) := by
  have h := congrFun (hpre c) ix0
  change Cert.Pre_finite_inputs.fn_part4 (F := Ideal) _ _ _ ix0 = 1#1 at h
  unfold Cert.Pre_finite_inputs.fn_part4 at h
  dsimp only at h
  have h78 := (IntOp.andi_eq_one.mp h).2
  intro e
  have he := Host.reduce_andi_all _ _ _ _ ix0 h78 e
  have h2 : IntOp.cmpi .sge (srcOf (m ((c.tc : Thread nD τ).loc main_arg14)) e) 4294917296#32 = 1#1
      ∧ IntOp.cmpi .slt (srcOf (m ((c.tc : Thread nD τ).loc main_arg14)) e) 50000#32 = 1#1 := IntOp.andi_eq_one.mp he
  have hge := IntOp.cmpi_sge.mp h2.1
  have hlt := IntOp.cmpi_slt.mp h2.2
  have hlo : (4294917296#32 : BitVec 32).toInt = -50000 := by decide
  have hhi : (50000#32 : BitVec 32).toInt = 50000 := by decide
  rw [hlo] at hge; rw [hhi] at hlt
  exact ⟨hge, hlt⟩

end Cert.KernelIdeal.Take

end
-- ==== Proof.Spec.lean ====
/-
  The layers of the two-layer graph network, each entry written as a formula on the extended reals.

  Every dense layer multiplies a row of activations with a row of a weight matrix stored output-major (W[c, j] is the weight
  from input feature j to output feature c): `rowDot X W r c = ∑ j, X[r, j] · W[c, j]`. Around it:
  * the projection: y = rowDot + bias, then each row divided by max(√(0 + ∑ c, y[c]²), ε), its Euclidean norm kept away from zero;
  * the plain linear map: rowDot alone;
  * the skip branch: leaky(rowDot + bias) + the identity embedding;
  * the combination: leaky(∑ j, leaky(H[r, j]) · W[c, j] + bias + skip), the leaky rectifier applied to the aggregated
    neighbourhood before the product and to the sum after it.
  The leaky rectifier keeps a value that is at least zero and multiplies any other by the slope 0x3C23D70A (the binary32 word
  nearest 0.01). Constants stay as their binary words: both programs carry the same words, so none is ever evaluated.
-/
import Idealize.ShloMosaic.PureOps.Ideal
import Idealize.ShloMosaic.Lib.ValueIdx

noncomputable section

open scoped BigOperators

namespace Cert.Gnn

open Idealize.ShloMosaic Idealize.ShloMosaic.ValueIdx

/-- A matrix of extended reals with `n` rows and `m` columns. -/
abbrev Mat (n m : ℕ) : Type := (⟨2, ![n, m]⟩ : Shape).Idx → EReal
/-- A vector of extended reals of length `n`. -/
abbrev Vect (n : ℕ) : Type := (⟨1, ![n]⟩ : Shape).Idx → EReal

/-- The word of positive zero. -/
abbrev zeroW : EReal := Ideal.ofBits .f32 0x00000000#32
/-- The slope of the leaky rectifier below zero. -/
abbrev slopeW : EReal := Ideal.ofBits .f32 0x3C23D70A#32
/-- The floor under a row's norm. -/
abbrev epsW : EReal := Ideal.ofBits .f32 0x2B8CBCCC#32

/-- The leaky rectifier: `x` where `0 ≤ x`, `slope · x` elsewhere. -/
def leaky (x : EReal) : EReal := Scalar.select (Ideal.cmp .oge x zeroW) x (slopeW * x)

variable {n k m : ℕ}

/-- Row `r` of `X` against row `c` of `W`. -/
def rowDot (X : Mat n k) (W : Mat m k) (r : Fin n) (c : Fin m) : EReal := ∑ j : Fin k, X (ix2 r j) * W (ix2 c j)

/-- The projection before normalisation. -/
def preNorm (X : Mat n k) (W : Mat m k) (b : Vect m) (r : Fin n) (c : Fin m) : EReal := rowDot X W r c + b (ix1 c)

/-- The normalised projection. -/
def projS (X : Mat n k) (W : Mat m k) (b : Vect m) (r : Fin n) (c : Fin m) : EReal :=
  Ideal.div (preNorm X W b r c)
    (max (Ideal.sqrt (zeroW + ∑ c' : Fin m, preNorm X W b r c' * preNorm X W b r c')) epsW)

/-- The skip branch. -/
def skipS (X : Mat n k) (W : Mat m k) (b : Vect m) (E : Mat n m) (r : Fin n) (c : Fin m) : EReal :=
  leaky (rowDot X W r c + b (ix1 c)) + E (ix2 r c)

/-- The combination of the aggregated neighbourhood `H` with the skip branch `S`. -/
def combS (H : Mat n k) (W : Mat m k) (b : Vect m) (S : Mat n m) (r : Fin n) (c : Fin m) : EReal :=
  leaky ((∑ j : Fin k, leaky (H (ix2 r j)) * W (ix2 c j)) + b (ix1 c) + S (ix2 r c))

/-! ## The same layers over weights stored input-major and a bias stored as a one-row matrix

The kernels are handed each weight matrix transposed (WT[j, c] = W[c, j]) and each bias as a [1, m] row. -/

/-- Row `r` of `X` against column `c` of `WT`. -/
def colDot (X : Mat n k) (WT : Mat k m) (r : Fin n) (c : Fin m) : EReal := ∑ j : Fin k, X (ix2 r j) * WT (ix2 j c)

/-- The projection before normalisation, over the transposed weights and the bias row. -/
def preNormK (X : Mat n k) (WT : Mat k m) (B : Mat 1 m) (r : Fin n) (c : Fin m) : EReal := colDot X WT r c + B (ix2 0 c)

/-- The normalised projection, over the transposed weights and the bias row. -/
def projK (X : Mat n k) (WT : Mat k m) (B : Mat 1 m) (r : Fin n) (c : Fin m) : EReal :=
  Ideal.div (preNormK X WT B r c)
    (max (Ideal.sqrt (zeroW + ∑ c' : Fin m, preNormK X WT B r c' * preNormK X WT B r c')) epsW)

/-- The skip branch, over the transposed weights and the bias row. -/
def skipK (X : Mat n k) (WT : Mat k m) (B : Mat 1 m) (E : Mat n m) (r : Fin n) (c : Fin m) : EReal :=
  leaky (colDot X WT r c + B (ix2 0 c)) + E (ix2 r c)

/-- The combination, over the transposed weights and the bias row. -/
def combK (H : Mat n k) (WT : Mat k m) (B : Mat 1 m) (S : Mat n m) (r : Fin n) (c : Fin m) : EReal :=
  leaky ((∑ j : Fin k, leaky (H (ix2 r j)) * WT (ix2 j c)) + B (ix2 0 c) + S (ix2 r c))

section Layouts
variable {X : Mat n k} {W : Mat m k} {WT : Mat k m} {b : Vect m} {B : Mat 1 m}

theorem colDot_eq_rowDot (hW : ∀ j c, WT (ix2 j c) = W (ix2 c j)) (r : Fin n) (c : Fin m) :
    colDot X WT r c = rowDot X W r c := by
  unfold colDot rowDot
  exact Finset.sum_congr rfl fun j _ => by rw [hW]

theorem preNormK_eq (hW : ∀ j c, WT (ix2 j c) = W (ix2 c j)) (hB : ∀ c, B (ix2 0 c) = b (ix1 c)) (r : Fin n) (c : Fin m) :
    preNormK X WT B r c = preNorm X W b r c := by
  unfold preNormK preNorm; rw [colDot_eq_rowDot hW, hB]

theorem projK_eq (hW : ∀ j c, WT (ix2 j c) = W (ix2 c j)) (hB : ∀ c, B (ix2 0 c) = b (ix1 c)) (r : Fin n) (c : Fin m) :
    projK X WT B r c = projS X W b r c := by
  unfold projK projS
  simp only [preNormK_eq hW hB]

theorem skipK_eq (hW : ∀ j c, WT (ix2 j c) = W (ix2 c j)) (hB : ∀ c, B (ix2 0 c) = b (ix1 c)) (E : Mat n m) (r : Fin n) (c : Fin m) :
    skipK X WT B E r c = skipS X W b E r c := by
  unfold skipK skipS; rw [colDot_eq_rowDot hW, hB]

theorem combK_eq {H : Mat n k} (hW : ∀ j c, WT (ix2 j c) = W (ix2 c j)) (hB : ∀ c, B (ix2 0 c) = b (ix1 c)) (S : Mat n m) (r : Fin n) (c : Fin m) :
    combK H WT B S r c = combS H W b S r c := by
  unfold combK combS
  rw [hB]
  exact congrArg leaky (congrArg (· + b (ix1 c) + S (ix2 r c)) (Finset.sum_congr rfl fun j _ => by rw [hW]))

end Layouts

/-- A matrix from its entries. -/
def ofEntries (f : Fin n → Fin m → EReal) : Mat n m := fun i => f (i 0) (i 1)

theorem ofEntries_apply (f : Fin n → Fin m → EReal) (r : Fin n) (c : Fin m) : ofEntries f (ix2 r c) = f r c := rfl

/-- Two matrices with the same entries are one. -/
theorem mat_ext {A B : Mat n m} (h : ∀ r c, A (ix2 r c) = B (ix2 r c)) : A = B :=
  funext fun i => by rw [eq_ix2 i]; exact h _ _

end Cert.Gnn

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KReg0.lean ====
import proofs.«421336_j43198781063543_1_alg».proof.Proof.Gen.KernelIdeal.Frame
import proofs.«421336_j43198781063543_1_alg».proof.Proof.Spec
import proofs.«421336_j43198781063543_1_alg».proof.Proof.LibDotPlain
import proofs.«421336_j43198781063543_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! # Region 0: the normalised projection of the features

The body multiplies a block of 400 rows of the features with the whole weight matrix, adds the bias row, and divides each
row by its Euclidean norm kept above a floor. Read entry by entry its stored value is the normalised projection of its
loaded blocks; each block of the output is the restriction of one whole-array function, and the 125 blocks of 400 rows
tile the 50000 rows, so the array ends holding that function. -/

/-! ## The body's value at an entry of its block -/

/-- The product of the features' block with the weights, into the zero accumulator, at (a, b): the sum over the 4096
    input features (the narrowing of the features to the short format keeps each value at the ideal values). -/
theorem mm_apply (x0 : FVec Ideal S400x4096 .f32) (x1 : FVec Ideal S4096x256 .bf16) (a : Fin 400) (b : Fin 256) :
    FloatOps.matmul dot_S400x4096_S4096x256_S400x256_1_0_0_1_n_n none (truncf .bf16 x0 bitsLt_bf16_f32)
        (shapeCast S4096x256 x1 shapeCasts_S4096x256_S4096x256) (constant S400x256 .f32 0x00000000#32) (ix2 a b)
      = ∑ c : Fin 4096, x0 (ix2 a c) * x1 (ix2 c b) := by
  rw [shapeCast_self]
  exact Cert.LibDotPlain.matmul_zero_apply _ none _ _ a b

/-- The bias row broadcast over the block's rows reads, at (a, b), the row's entry b. -/
theorem bias_apply (x2 : FVec Ideal S1x256 .f32) (a : Fin 400) (b : Fin 256) :
    broadcastTo S400x256 (shapeCast S1x256 x2 shapeCasts_S1x256_S1x256) broadcasts_S1x256_S400x256 (ix2 a b)
      = x2 (ix2 (0 : Fin 1) b) := by
  rw [shapeCast_self]
  exact broadcastTo_1b_ab_apply x2 _ a b

/-- The sum along a row of a [400, 256] block, at row a: the sum over the row's 256 entries. -/
theorem rowsum_apply (v : FVec Ideal S400x256 .f32) (hφ : FKind.Formats .f32)
    (hacc : (0x00000000#32 : BitVec 32) = 0x00000000#32) (a : Fin 400) :
    multiReduction (F := Ideal) .add [1] S400 v 0x00000000#32 reduces_S400x256_S400 hφ hacc (ix1 a)
      = ∑ k : Fin 256, v (ix2 a k) := by
  refine (Ideal.multiReduction_add_single v 0x00000000#32 reduces_S400x256_S400 hφ hacc (ix1 a)).trans ?_
  refine Finset.sum_congr rfl fun k _ => congrArg v (funext fun ax => Fin.ext ?_)
  match ax with
  | ⟨0, _⟩ => rfl
  | ⟨1, _⟩ => rfl

/-- The projection before normalisation, as a block of the loaded blocks: the product into the zero accumulator plus
    the bias row broadcast over the rows. -/
def preBlk (x0 : Vec Ideal S400x4096 .f32) (x1 : Vec Ideal S4096x256 .bf16) (x2 : Vec Ideal S1x256 .f32) :
    FVec Ideal S400x256 .f32 :=
  addf (FloatOps.matmul dot_S400x4096_S4096x256_S400x256_1_0_0_1_n_n none
      (truncf .bf16 (x0 : FVec Ideal S400x4096 .f32) bitsLt_bf16_f32 : FVec Ideal S400x4096 .bf16)
      (shapeCast S4096x256 x1 shapeCasts_S4096x256_S4096x256 : FVec Ideal S4096x256 .bf16) (constant S400x256 .f32 0x00000000#32))
    (broadcastTo S400x256 (shapeCast S1x256 x2 shapeCasts_S1x256_S1x256 : FVec Ideal S1x256 .f32) broadcasts_S1x256_S400x256)

/-- Its entry (a, b): row a of the features against column b of the weights, plus the bias at b. -/
theorem preBlk_apply (x0 : Vec Ideal S400x4096 .f32) (x1 : Vec Ideal S4096x256 .bf16) (x2 : Vec Ideal S1x256 .f32)
    (a : Fin 400) (b : Fin 256) : preBlk x0 x1 x2 (ix2 a b) = preNormK x0 x1 x2 a b := by
  unfold preBlk preNormK colDot
  rw [addf_apply, mm_apply, bias_apply]

/-- The root of a block, entry by entry. -/
theorem sqrt_apply {s : Shape} {φ : FTy} (v : FVec Ideal s φ) (i : s.Idx) : sqrt v i = Ideal.sqrt (v i) := rfl

/-- The floor-bounded norm of each row, kept as a [400, 1] column: the root of the row's sum of squares, no smaller
    than the floor. -/
def normCol (p : FVec Ideal S400x256 .f32) : FVec Ideal S400x1 .f32 :=
  maximumf (sqrt (shapeCast S400x1 (multiReduction (F := Ideal) .add [1] S400 (mulf p p) 0x00000000#32 reduces_S400x256_S400 (.inl rfl) rfl)
      shapeCasts_S400_S400x1 : FVec Ideal S400x1 .f32))
    (broadcast S400x1 (Scalar.ofBits .f32 0x2B8CBCCC#32))

/-- Its entry at row a. -/
theorem normCol_apply (p : FVec Ideal S400x256 .f32) (a : Fin 400) (u : Fin 1) :
    normCol p (ix2 a u) = max (Ideal.sqrt (∑ k : Fin 256, p (ix2 a k) * p (ix2 a k))) epsW := by
  unfold normCol
  rw [maximumf_apply, broadcast_apply, sqrt_apply, Cert.LibColumn.shapeCast_a_a1_apply, rowsum_apply]
  rfl

/-- The body's stored value is the projection divided, row by row, by the broadcast column of norms. -/
theorem pay_eq (x0 : Vec Ideal S400x4096 .f32) (x1 : Vec Ideal S4096x256 .bf16) (x2 : Vec Ideal S1x256 .f32) :
    k0_pay1 (F := Ideal) x0 x1 x2
      = divf (preBlk x0 x1 x2) (broadcastTo S400x256 (normCol (preBlk x0 x1 x2)) broadcasts_S400x1_S400x256) := rfl

/-- THE BODY'S VALUE AT AN ENTRY: the normalised projection of the loaded blocks. -/
theorem pay_apply (x0 : Vec Ideal S400x4096 .f32) (x1 : Vec Ideal S4096x256 .bf16) (x2 : Vec Ideal S1x256 .f32)
    (a : Fin 400) (b : Fin 256) : k0_pay1 (F := Ideal) x0 x1 x2 (ix2 a b) = projK x0 x1 x2 a b := by
  rw [pay_eq, divf_apply, Cert.LibColumn.broadcastTo_a1_ab_apply, normCol_apply]
  unfold projK
  simp only [preBlk_apply]
  rw [show (zeroW : EReal) = 0 from Ideal.ofBits_zero_f32, zero_add]

/-! ## From the blocks to the array -/

/-- The whole output array: the normalised projection of the features, of the arrays the region finds. -/
def projArr (c : Dev nD) : S50000x256.Idx → EReal :=
  ofEntries (projK (V c main_arg0) (V c main_v5) (V c main_v6))

/-- The normalised projection at a row reads that row of the features only: over a block of rows whose row p is the
    array's row r it is the array's, at r. -/
theorem projK_of_row {n N k m : ℕ} (Xb : Mat n k) (X : Mat N k) (WT : Mat k m) (B : Mat 1 m) (p : Fin n) (r : Fin N)
    (h : ∀ j, Xb (ix2 p j) = X (ix2 r j)) (q : Fin m) : projK Xb WT B p q = projK X WT B r q := by
  unfold projK preNormK colDot
  simp only [h]

/-- The origin of a two-axis block: both offsets zero. -/
theorem zero_offsets : (![0, 0] : Fin 2 → Nat) = fun _ => 0 := funext fun a => by fin_cases a <;> rfl

/-- The printed index maps, decided over the grid: the features' and the output's blocks sit at block row t, block
    column 0; the weights' and the bias's blocks are their whole arrays, at block (0, 0). -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Entry (p, q) of the output's block at point t sits in the array at row 400 t + p, column q. -/
theorem out_emb (t : Fin cfg0.N) (p : Fin 400) (q : Fin 256) (r : Fin 50000) (hr : r.val = t.val * 400 + p.val) :
    ((cfg0.win 3).blk t).view.emb (ix2 p q) = ix2 r q := by
  obtain ⟨-, -, -, -, -, -, e0, e1⟩ := block_indices t
  funext a; apply Fin.ext
  match a with
  | ⟨0, _⟩ => show win0_3.index t (0 : Fin 2) * 400 + 1 * p.val = r.val; omega
  | ⟨1, _⟩ => show win0_3.index t (1 : Fin 2) * 256 + 1 * q.val = q.val; omega

/-- Row p of the features' block at point t is row 400 t + p of the features. -/
theorem feat_blk (c : Dev nD) (t : Fin cfg0.N) (p : Fin 400) (j : Fin 4096) (r : Fin 50000) (hr : r.val = t.val * 400 + p.val) :
    iblk0 V c 0 t (ix2 p j) = V c main_arg0 (ix2 r j) := by
  obtain ⟨e0, e1, -⟩ := block_indices t
  show V c main_arg0 (((cfg0.win 0).blk t).view.emb (ix2 p j)) = V c main_arg0 (ix2 r j)
  refine congrArg _ (funext fun a => Fin.ext ?_)
  match a with
  | ⟨0, _⟩ => show win0_0.index t (0 : Fin 2) * 400 + 1 * p.val = r.val; omega
  | ⟨1, _⟩ => show win0_0.index t (1 : Fin 2) * 4096 + 1 * j.val = j.val; omega

/-- The weights' block at every point is the whole weight array. -/
theorem wt_blk (c : Dev nD) (t : Fin cfg0.N) : iblk0 V c 1 t = V c main_v5 := by
  obtain ⟨-, -, e0, e1, -⟩ := block_indices t
  funext i
  show V c main_v5 (((cfg0.win 1).blk t).view.emb i) = V c main_v5 i
  refine congrArg _ (funext fun a => Fin.ext ?_)
  match a with
  | ⟨0, _⟩ => show win0_1.index t (0 : Fin 2) * 4096 + 1 * (i 0).val = (i 0).val; omega
  | ⟨1, _⟩ => show win0_1.index t (1 : Fin 2) * 256 + 1 * (i 1).val = (i 1).val; omega

/-- The bias's block at every point is the whole bias row. -/
theorem bias_blk (c : Dev nD) (t : Fin cfg0.N) : iblk0 V c 2 t = V c main_v6 := by
  obtain ⟨-, -, -, -, e0, e1, -⟩ := block_indices t
  funext i
  show V c main_v6 (((cfg0.win 2).blk t).view.emb i) = V c main_v6 i
  refine congrArg _ (funext fun a => Fin.ext ?_)
  match a with
  | ⟨0, _⟩ => show win0_2.index t (0 : Fin 2) * 1 + 1 * (i 0).val = (i 0).val; omega
  | ⟨1, _⟩ => show win0_2.index t (1 : Fin 2) * 256 + 1 * (i 1).val = (i 1).val; omega

/-- WHAT POINT t WRITES BACK is block t of the whole-array function. -/
theorem flushed_eq (c : Dev nD) (t : Fin cfg0.N) :
    (dat0 (F := Ideal) V c).flushed 3 t = ((cfg0.win 3).blk t).view.read (Elt Ideal) (projArr V c) := by
  show (cfg0.win 3).cut (grid0.coords t) ((dat0 V c).after 3 t) = _
  rw [after0_3]
  unfold out0_3
  rw [View.canon_unit_zero zero_offsets]
  simp only [View.ld_unit_zero (S := S400x4096) zero_offsets, View.ld_unit_zero (S := S4096x256) zero_offsets, View.ld_unit_zero (S := S1x256) zero_offsets]
  rw [wt_blk, bias_blk]
  funext j
  obtain ⟨p, q, rfl⟩ : ∃ (p : Fin 400) (q : Fin 256), j = ix2 p q := ⟨j 0, j 1, eq_ix2 j⟩
  have ht : t.val < 125 := lt_of_lt_of_eq t.isLt N_0
  have hr : (⟨t.val * 400 + p.val, by omega⟩ : Fin 50000).val = t.val * 400 + p.val := rfl
  show k0_pay1 (F := Ideal) (iblk0 V c 0 t) (V c main_v5) (V c main_v6) (ix2 p q)
    = projArr V c (((cfg0.win 3).blk t).view.emb (ix2 p q))
  rw [pay_apply, out_emb t p q _ hr]
  exact projK_of_row _ _ _ _ p _ (fun j => feat_blk V c t p j _ hr) q

/-- An index of the array is in point t's block iff each coordinate is in the block's range on its axis. -/
theorem mem_blk (t : Fin cfg0.N) (i : S50000x256.Idx) :
    i ∈ ((cfg0.win 3).blk t).view.set ↔ ∀ a : Fin 2, win0_3.index t a * S400x256.size a ≤ (i a).val
      ∧ (i a).val < win0_3.index t a * S400x256.size a + S400x256.size a := by
  show i ∈ ((View.whole main_v7).slice (win0_3.rect t)).set ↔ _
  rw [View.set_slice_whole, Rect.mem_set_unit]
  exact Iff.rfl

/-- Every entry of the array is in the block of the point its row falls to, 400 rows a point, and that point writes back. -/
theorem rows_covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hlt : (i 0).val / 400 < cfg0.N := lt_of_lt_of_eq (by omega : (i 0).val / 400 < 125) N_0.symm
  obtain ⟨-, -, -, -, -, -, e0, e1⟩ := block_indices ⟨(i 0).val / 400, hlt⟩
  have e0' : win0_3.index ⟨(i 0).val / 400, hlt⟩ (0 : Fin 2) = (i 0).val / 400 := e0
  refine ⟨⟨(i 0).val / 400, hlt⟩, flush0_3 _, ?_⟩
  rw [mem_blk]
  intro a
  match a with
  | ⟨0, _⟩ =>
    show win0_3.index ⟨(i 0).val / 400, hlt⟩ (0 : Fin 2) * 400 ≤ (i 0).val
      ∧ (i 0).val < win0_3.index ⟨(i 0).val / 400, hlt⟩ (0 : Fin 2) * 400 + 400
    omega
  | ⟨1, _⟩ =>
    show win0_3.index ⟨(i 0).val / 400, hlt⟩ (1 : Fin 2) * 256 ≤ (i 1).val
      ∧ (i 1).val < win0_3.index ⟨(i 0).val / 400, hlt⟩ (1 : Fin 2) * 256 + 256
    omega

/-- THE ARRAY after the last write-back: the whole-array function. -/
theorem arr_eq (c : Dev nD) : (dat0 (F := Ideal) V c).arrAt 3 cfg0.N = projArr V c :=
  (dat0 V c).arrAt_eq_of_cover 3 (projArr V c) (fun t _ => flushed_eq V c t) rows_covered

/-- Region 0's output array after its last write-back, entry by entry: the normalised projection of the features, of the arrays as the region finds them. -/
theorem out_apply (c : Dev nD) (r : Fin 50000) (q : Fin 256) :
    (dat0 (F := Ideal) V c).arrAt 3 cfg0.N (ix2 r q) = projK (V c main_arg0) (V c main_v5) (V c main_v6) r q := by
  rw [arr_eq]
  rfl

end Cert.KernelIdeal.Region0

end
-- ==== Proof.KReg1.lean ====
import proofs.«421336_j43198781063543_1_alg».proof.Proof.Gen.KernelIdeal.Frame
import proofs.«421336_j43198781063543_1_alg».proof.Proof.Spec
import proofs.«421336_j43198781063543_1_alg».proof.Proof.LibDotPlain
import proofs.«421336_j43198781063543_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- The body's one store at an entry of the block: row `a` of the activations against column `b` of the weights, the
    matrix product into the zero accumulator with no rounding left (the narrowing to bf16 is the identity on the
    extended reals, and a reshape to the same shape moves nothing). -/
theorem pay_apply (x0 : Vec Ideal S2000x256 .f32) (x1 : Vec Ideal S256x256 .bf16) (a : Fin 2000) (b : Fin 256) :
    k1_pay1 x0 x1 (ix2 a b) = ∑ j : Fin 256, x0 (ix2 a j) * x1 (ix2 j b) := by
  unfold k1_pay1
  rw [shapeCast_self, shapeCast_self]
  exact Cert.LibDotPlain.matmul_zero_apply _ none _ _ a b

/-- The whole output array, entry by entry: row `r` of the activations against column `q` of the weights. -/
def G (c : Dev nD) : S50000x256.Idx → Elt Ideal .f32 := ofEntries (colDot (V c main_v7) (V c main_v9))

/-- The index maps over the grid: the activations' block moves with the output's, one block of 2000 rows a point (point
    `t` at block `t`), both at column block 0; the weights' block is the whole matrix at every point. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- Entry `(p, j)` of the activations' block at a point is the array's entry at column `j` of the row where the output's
    block has its row `p`: on each axis a block's coordinate is block index × block size + the coordinate inside. -/
theorem act_entry (c : Dev nD) (t : Fin cfg1.N) (p : Fin 2000) (q j : Fin 256) :
    iblk1 V c 0 t (ix2 p j) = V c main_v7 (ix2 ((((cfg1.win 2).blk t).view.emb (ix2 p q)) 0) j) := by
  obtain ⟨e0, e1, -, -, -, -⟩ := idx_facts t
  show V c main_v7 (((cfg1.win 0).blk t).view.emb (ix2 p j)) = _
  refine congrArg (V c main_v7) ?_
  funext a; apply Fin.ext
  match a with
  | ⟨0, _⟩ =>
    show win1_0.index t (0 : Fin 2) * 2000 + 1 * p.val = win1_2.index t (0 : Fin 2) * 2000 + 1 * p.val
    omega
  | ⟨1, _⟩ =>
    show win1_0.index t (1 : Fin 2) * 256 + 1 * j.val = j.val
    omega

/-- Entry `(j, q)` of the weights' block at a point is the matrix's entry at row `j` of the column where the output's block
    has its column `q`: the weights' block is the whole matrix and the output's blocks span every column. -/
theorem wt_entry (c : Dev nD) (t : Fin cfg1.N) (p : Fin 2000) (q j : Fin 256) :
    iblk1 V c 1 t (ix2 j q) = V c main_v9 (ix2 j ((((cfg1.win 2).blk t).view.emb (ix2 p q)) 1)) := by
  obtain ⟨-, -, e2, e3, e4, -⟩ := idx_facts t
  show V c main_v9 (((cfg1.win 1).blk t).view.emb (ix2 j q)) = _
  refine congrArg (V c main_v9) ?_
  funext a; apply Fin.ext
  match a with
  | ⟨0, _⟩ =>
    show win1_1.index t (0 : Fin 2) * 256 + 1 * j.val = j.val
    omega
  | ⟨1, _⟩ =>
    show win1_1.index t (1 : Fin 2) * 256 + 1 * q.val = win1_2.index t (1 : Fin 2) * 256 + 1 * q.val
    omega

/-- What a point writes back is its block of the product: the store's payload read at an entry is the sum over the
    contracted coordinate of the two input blocks' entries, and each of those is the array's entry the output block's
    position names. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  funext y
  obtain ⟨p, q, rfl⟩ : ∃ (p : Fin 2000) (q : Fin 256), y = ix2 p q := ⟨y 0, y 1, eq_ix2 y⟩
  show k1_pay1 (iblk1 V c 0 t) (iblk1 V c 1 t) (ix2 p q) = G V c (((cfg1.win 2).blk t).view.emb (ix2 p q))
  rw [pay_apply]
  show _ = colDot (V c main_v7) (V c main_v9) _ _
  unfold colDot
  exact Finset.sum_congr rfl fun j _ => by rw [act_entry V c t p q j, wt_entry V c t p q j]

/-- An index of the array is in a point's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v10).slice (win1_2.rect t)).set ↔ _
  rw [View.set_slice_whole, Rect.mem_set_unit]
  exact Iff.rfl

/-- Every entry of the array is written back by some point: row `r` by the point `r / 2000`, whose block holds the rows
    from `2000 · (r / 2000)` up to the next multiple and every column. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 256 ≤ (i 1).val ∧ (i 1).val < win1_2.index t (1 : Fin 2) * 256 + 256
    omega

/-- The output array after the last write-back is the product, whole: every point writes back its block of it, and the
    blocks cover the array. -/
theorem final (c : Dev nD) : (dat1 V c).arrAt 2 cfg1.N = G V c :=
  (dat1 V c).arrAt_eq_of_cover 2 (G V c) (fun t _ => flushed_eq V c t) cover

/-- Region 1's output array after its last write-back, entry by entry: the first layer's linear map of the normalised projection, of the arrays as the region finds them. -/
theorem out_apply (c : Dev nD) (r : Fin 50000) (q : Fin 256) :
    (dat1 (F := Ideal) V c).arrAt 2 cfg1.N (ix2 r q) = colDot (V c main_v7) (V c main_v9) r q := by
  rw [final]
  rfl

end Cert.KernelIdeal.Region1

end
-- ==== Proof.RefStagesA.lean ====
import proofs.«421336_j43198781063543_1_alg».proof.Proof.RefReadP
import proofs.«421336_j43198781063543_1_alg».proof.Proof.Spec
import Idealize.ShloMosaic.Lib.ValueIdx
import Idealize.ShloMosaic.PureOps.Ideal.Laws

noncomputable section

open scoped BigOperators

namespace Cert.ReferenceIdeal.StagesA

open Cert.ReferenceIdeal Cert.ReferenceIdeal.ReadP Cert.Gnn
open Idealize.ShloMosaic Idealize.ShloMosaic.ValueIdx

/-- The projection before normalisation, entry by entry: the product against the transposed weights reads the weights
output-major, and the twice-broadcast bias reads the bias at the column. -/
theorem v4_entry (x0 : (⟨S50000x4096, .f32⟩ : BufTy).Contents (Elt Ideal)) (x2 : (⟨S256x4096, .f32⟩ : BufTy).Contents (Elt Ideal)) (x3 : (⟨S256, .f32⟩ : BufTy).Contents (Elt Ideal)) (r : Fin 50000) (c : Fin 256) :
    val_main_v4 (F := Ideal) x0 x2 x3 (ix2 r c) = preNorm x0 x2 x3 r c := by
  rw [val_main_v4_apply, val_main_v1_apply, val_main_v3_apply, val_main_v2_apply]
  unfold preNorm rowDot
  have eb : idx_main_v2 (idx_main_v3 (ix2 r c)) = ix1 c :=
    funext fun a => Fin.ext (by match a with | ⟨0, _⟩ => rfl)
  rw [eb, Ideal.addf_def]
  refine congrArg (· + x3 (ix1 c)) (Finset.sum_congr rfl fun k _ => ?_)
  rw [val_main_v0_apply]
  have e1 : lidx_main_v1 (ix2 r c) k = ix2 r k :=
    funext fun a => Fin.ext (by match a with | ⟨0, _⟩ => rfl | ⟨1, _⟩ => rfl)
  have e2 : idx_main_v0 (ridx_main_v1 (ix2 r c) k) = ix2 c k :=
    funext fun a => Fin.ext (by match a with | ⟨0, _⟩ => rfl | ⟨1, _⟩ => rfl)
  rw [e1, e2]

/-- The normalised projection, entry by entry. -/
theorem v12_entry (x0 : (⟨S50000x4096, .f32⟩ : BufTy).Contents (Elt Ideal)) (x2 : (⟨S256x4096, .f32⟩ : BufTy).Contents (Elt Ideal)) (x3 : (⟨S256, .f32⟩ : BufTy).Contents (Elt Ideal)) (r : Fin 50000) (c : Fin 256) :
    val_main_v12 (F := Ideal) x0 x2 x3 (ix2 r c) = projS x0 x2 x3 r c := by
  -- the divisor is the row's norm: the square root of zero plus the row's sum of squares, kept above the floor,
  -- carried along the row by two broadcasts
  rw [val_main_v12_apply, val_main_v11_apply, val_main_v10_apply, val_main_v8_apply, val_main_v7_apply,
    val_main_v6_apply, val_main_v9_apply, val_main_cst_0_apply, val_main_cst_apply, v4_entry]
  unfold projS
  have es : ∀ k : Fin 256, idx_main_v6 (idx_main_v7 (idx_main_v11 (ix2 r c))) k = ix2 r k := fun k =>
    funext fun a => Fin.ext (by match a with | ⟨0, _⟩ => rfl | ⟨1, _⟩ => rfl)
  simp only [es, val_main_v5_apply, v4_entry, Ideal.hostDivf_def, Ideal.maximumf_def, Ideal.hostUnary_sqrt_def,
    Ideal.ofBits_def, Ideal.mulf_def]

/-- The first layer's linear map of the normalised projection, entry by entry. -/
theorem v14_entry (x0 : (⟨S50000x4096, .f32⟩ : BufTy).Contents (Elt Ideal)) (x2 : (⟨S256x4096, .f32⟩ : BufTy).Contents (Elt Ideal)) (x3 : (⟨S256, .f32⟩ : BufTy).Contents (Elt Ideal)) (x4 : (⟨S256x256, .f32⟩ : BufTy).Contents (Elt Ideal)) (r : Fin 50000) (c : Fin 256) :
    val_main_v14 (F := Ideal) x0 x2 x3 x4 (ix2 r c) = rowDot (val_main_v12 (F := Ideal) x0 x2 x3) x4 r c := by
  -- the product's right factor is the transposed weight matrix, so it reads the weights at (c, k)
  rw [val_main_v14_apply]
  unfold rowDot
  refine Finset.sum_congr rfl fun k _ => ?_
  rw [val_main_v13_apply]
  have e1 : lidx_main_v14 (ix2 r c) k = ix2 r k :=
    funext fun a => Fin.ext (by match a with | ⟨0, _⟩ => rfl | ⟨1, _⟩ => rfl)
  have e2 : idx_main_v13 (ridx_main_v14 (ix2 r c) k) = ix2 c k :=
    funext fun a => Fin.ext (by match a with | ⟨0, _⟩ => rfl | ⟨1, _⟩ => rfl)
  rw [e1, e2]

/-- The second layer's linear map, entry by entry. -/
theorem v57_entry (x0 : (⟨S50000x4096, .f32⟩ : BufTy).Contents (Elt Ideal)) (x1 : (⟨S50000x64, .f32⟩ : BufTy).Contents (Elt Ideal)) (x2 : (⟨S256x4096, .f32⟩ : BufTy).Contents (Elt Ideal)) (x3 : (⟨S256, .f32⟩ : BufTy).Contents (Elt Ideal)) (x4 : (⟨S256x256, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal)) (x8 : (⟨S64, .f32⟩ : BufTy).Contents (Elt Ideal)) (x9 : (⟨S64x64, .f32⟩ : BufTy).Contents (Elt Ideal)) (x14 : (⟨S2x800000, .i32⟩ : BufTy).Contents (Elt Ideal)) (r : Fin 50000) (c : Fin 64) :
    val_main_v57 (F := Ideal) x0 x1 x2 x3 x4 x5 x6 x7 x8 x9 x14 (ix2 r c) = rowDot (val_main_v55 (F := Ideal) x0 x1 x2 x3 x4 x5 x6 x7 x8 x14) x9 r c := by
  -- the product's right factor is the transposed weight matrix, so it reads the weights at (c, k)
  rw [val_main_v57_apply]
  unfold rowDot
  refine Finset.sum_congr rfl fun k _ => ?_
  rw [val_main_v56_apply]
  have e1 : lidx_main_v57 (ix2 r c) k = ix2 r k :=
    funext fun a => Fin.ext (by match a with | ⟨0, _⟩ => rfl | ⟨1, _⟩ => rfl)
  have e2 : idx_main_v56 (ridx_main_v57 (ix2 r c) k) = ix2 c k :=
    funext fun a => Fin.ext (by match a with | ⟨0, _⟩ => rfl | ⟨1, _⟩ => rfl)
  rw [e1, e2]

end Cert.ReferenceIdeal.StagesA

end
-- ==== Proof.KWalkA.lean ====
/-
  The kernel's arrays, boundary by boundary: the first two regions.

  The kernel program's @main is sixteen segments: stretches of host operations (transposes and reshapes of the weights,
  the take of source rows and the scatter-add over destination rows) and seven regions. The buffer contents at each
  segment boundary are a fold from the launch memory. Read at the buffer a region writes, the fold gives the region's
  output array — one layer of the network applied to the arrays the region finds — and read at a buffer a host stretch
  writes, the stretch's operation applied to what it finds; every other buffer is carried through unchanged. Here:
  region 0's output is the reference's normalised projection of the launch arguments, and region 1's its first linear
  map. Each step joins three facts: the region's array entry by entry (over transposed weights and a bias row), the
  same layer over the weights as given (the host stretch before the region transposed them, and narrowing to bf16 is
  the identity on the extended reals), and the reference's stage entry by entry.
-/
import proofs.«421336_j43198781063543_1_alg».proof.Proof.Gen.KernelIdeal.Frame
import proofs.«421336_j43198781063543_1_alg».proof.Proof.Spec
import proofs.«421336_j43198781063543_1_alg».proof.Proof.KReg0
import proofs.«421336_j43198781063543_1_alg».proof.Proof.KReg1
import proofs.«421336_j43198781063543_1_alg».proof.Proof.RefStagesA
import proofs.«421336_j43198781063543_1_alg».proof.Proof.KTake
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Walk

open Cert.KernelIdeal Cert.KernelIdeal.Gen Cert.Gnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option hygiene false in
/-- One step back through @main's segments for the contents of a buffer at a boundary: across a host stretch that does
    not write it, across a region of which it is no array, or across a region that reads it through an input window
    (an input window's array ends as it was entered). Each alternative first checks which boundary the goal is at. -/
macro "back_step" : tactic => `(tactic| first
  | with_reducible rfl
  | ((with_reducible (show W16 _ _ _ _ = _)); first
      | (refine Eq.trans (W16_of_ne m ρ c _ (by decide)) ?_))
  | ((with_reducible (show W14 _ _ _ _ = _)); first
      | (refine Eq.trans (W14_of_ne m ρ c _ (by decide)) ?_)
      | (refine Eq.trans ((W14_arr m ρ c 3).trans (((dat5 (V13 m ρ) c).arrAt_in 3 rfl _).trans (A_eq5 (V13 m ρ) c 3))) ?_))
  | ((with_reducible (show W11 _ _ _ _ = _)); first
      | (refine Eq.trans (W11_of_ne m ρ c _ (by decide)) ?_)
      | (refine Eq.trans ((W11_arr m ρ c 0).trans (((dat4 (V10 m ρ) c).arrAt_in 0 rfl _).trans (A_eq4 (V10 m ρ) c 0))) ?_))
  | ((with_reducible (show W9 _ _ _ _ = _)); first
      | (refine Eq.trans (W9_of_ne m ρ c _ (by decide)) ?_))
  | ((with_reducible (show W7 _ _ _ _ = _)); first
      | (refine Eq.trans (W7_of_ne m ρ c _ (by decide)) ?_)
      | (refine Eq.trans ((W7_arr m ρ c 3).trans (((dat2 (V6 m ρ) c).arrAt_in 3 rfl _).trans (A_eq2 (V6 m ρ) c 3))) ?_))
  | ((with_reducible (show W4 _ _ _ _ = _)); first
      | (refine Eq.trans (W4_of_ne m ρ c _ (by decide)) ?_)
      | (refine Eq.trans ((W4_arr m ρ c 0).trans (((dat1 (V3 m ρ) c).arrAt_in 0 rfl _).trans (A_eq1 (V3 m ρ) c 0))) ?_))
  | ((with_reducible (show W2 _ _ _ _ = _)); first
      | (refine Eq.trans (W2_of_ne m ρ c _ (by decide)) ?_)
      | (refine Eq.trans ((W2_arr m ρ c 0).trans (((dat0 (V1 m ρ) c).arrAt_in 0 rfl _).trans (A_eq0 (V1 m ρ) c 0))) ?_))
  | ((with_reducible (show StableHlo.after _ _ _ = _));
     refine Eq.trans (StableHlo.after_of_forall_not_mem _ _ (List.forall_iff_forall_mem.mp (by
      simp only [hostOps0, hostOps1, hostOps2, hostOps2_1, hostOps3, hostOps4, hostOps5, hostOps5_1, hostOps6,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))) ?_))

/-- Back through the segments until the two sides are the same boundary's contents (or the launch memory). -/
macro "walk_back" : tactic => `(tactic| ((repeat back_step); try rfl))

local notation "d" b => Proc.devRef (τ := τ) (sig := sig) Proc.tc b

/-! ## Region 0: the normalised projection -/

theorem W1_arg0 (c : Dev nD) : W1 m ρ c (Proc.devRef .tc main_arg0) = m ((c.tc : Thread nD τ).loc main_arg0) := by walk_back

theorem W1_v5_eq (c : Dev nD) : (W1 m ρ c (Proc.devRef .tc main_v5) : FVec Ideal S4096x256 .bf16)
    = truncf (F := Ideal) .bf16 (transpose S4096x256 [1, 0] (m ((c.tc : Thread nD τ).loc main_arg2)) transposes_S256x4096_S4096x256_1_0) bitsLt_bf16_f32 := by
  show StableHlo.after hostOps0 (W0 m ρ c) (Proc.devRef .tc main_v5) = _
  after_results <;> rfl

theorem W1_v5 (c : Dev nD) (j : Fin 4096) (q : Fin 256) :
    W1 m ρ c (Proc.devRef .tc main_v5) (ix2 j q) = m ((c.tc : Thread nD τ).loc main_arg2) (ix2 q j) := by
  rw [W1_v5_eq]
  exact transpose_apply [1, 0] _ transposes_S256x4096_S4096x256_1_0 (ix2 j q) (ix2 q j) (fun b => match b with
    | ⟨0, _⟩ => rfl
    | ⟨1, _⟩ => rfl)

theorem W1_v6_eq (c : Dev nD) : (W1 m ρ c (Proc.devRef .tc main_v6) : FVec Ideal S1x256 .f32)
    = shapeCast S1x256 (m ((c.tc : Thread nD τ).loc main_arg3)) shapeCasts_S256_S1x256 := by
  show StableHlo.after hostOps0 (W0 m ρ c) (Proc.devRef .tc main_v6) = _
  after_results <;> rfl

theorem W1_v6 (c : Dev nD) (q : Fin 256) :
    W1 m ρ c (Proc.devRef .tc main_v6) (ix2 (0 : Fin 1) q) = m ((c.tc : Thread nD τ).loc main_arg3) (ix1 q) := by
  rw [W1_v6_eq]
  exact shapeCast_apply _ shapeCasts_S256_S1x256 (ix2 (0 : Fin 1) q) (ix1 q)
    (by rw [Shape.rowMajor_val_two, Shape.rowMajor_val_one]; show q.val = 0 * 256 + q.val; omega)

/-- At region 0's exit its output array holds the reference's normalised projection of the launch arguments. -/
theorem x0_eq (c : Dev nD) : (W2 m ρ c (Proc.devRef .tc main_v7) : Mat 50000 256)
    = Cert.ReferenceIdeal.ReadP.val_main_v12 (F := Ideal) (m ((c.tc : Thread nD τ).loc main_arg0))
        (m ((c.tc : Thread nD τ).loc main_arg2)) (m ((c.tc : Thread nD τ).loc main_arg3)) := by
  refine mat_ext fun r q => ?_
  rw [Cert.ReferenceIdeal.StagesA.v12_entry]
  refine (congrFun (W2_arr m ρ c 3) (ix2 r q)).trans ((Cert.KernelIdeal.Region0.out_apply (V1 m ρ) c r q).trans ?_)
  show projK (W1 m ρ c (Proc.devRef .tc main_arg0)) (W1 m ρ c (Proc.devRef .tc main_v5)) (W1 m ρ c (Proc.devRef .tc main_v6)) r q = _
  rw [W1_arg0]
  exact projK_eq (W1_v5 m ρ c) (W1_v6 m ρ c) r q

/-- The edges' destination words: row 1 of the edge table. -/
def dstOf (a14 : IVec S2x800000 32) : IVec S800000 32 :=
  shapeCast S800000 (extractStridedSlice S1x800000 ![1, 0] a14 slices_S2x800000_S1x800000_1_0) shapeCasts_S1x800000_S800000

theorem W1_v1_eq (c : Dev nD) : (W1 m ρ c (Proc.devRef .tc main_v1) : IVec S800000 32)
    = Cert.KernelIdeal.Take.srcOf (m ((c.tc : Thread nD τ).loc main_arg14)) := by
  show StableHlo.after hostOps0 (W0 m ρ c) (Proc.devRef .tc main_v1) = _
  after_results <;> rfl

theorem W1_v3_eq (c : Dev nD) : (W1 m ρ c (Proc.devRef .tc main_v3) : IVec S800000 32)
    = dstOf (m ((c.tc : Thread nD τ).loc main_arg14)) := by
  show StableHlo.after hostOps0 (W0 m ρ c) (Proc.devRef .tc main_v3) = _
  after_results <;> rfl

/-! ## Region 1: the first linear map -/

theorem W2_arg4 (c : Dev nD) : W2 m ρ c (Proc.devRef .tc main_arg4) = m ((c.tc : Thread nD τ).loc main_arg4) := by walk_back

theorem W3_v7 (c : Dev nD) : W3 m ρ c (Proc.devRef .tc main_v7) = W2 m ρ c (Proc.devRef .tc main_v7) := by walk_back

theorem W3_v9_eq (c : Dev nD) : (W3 m ρ c (Proc.devRef .tc main_v9) : FVec Ideal S256x256 .bf16)
    = truncf (F := Ideal) .bf16 (transpose S256x256 [1, 0] (W2 m ρ c (Proc.devRef .tc main_arg4)) transposes_S256x256_S256x256_1_0) bitsLt_bf16_f32 := by
  show StableHlo.after hostOps1 (W2 m ρ c) (Proc.devRef .tc main_v9) = _
  after_results <;> rfl

theorem W3_v9 (c : Dev nD) (j q : Fin 256) :
    W3 m ρ c (Proc.devRef .tc main_v9) (ix2 j q) = m ((c.tc : Thread nD τ).loc main_arg4) (ix2 q j) := by
  rw [W3_v9_eq, W2_arg4]
  exact transpose_apply [1, 0] _ transposes_S256x256_S256x256_1_0 (ix2 j q) (ix2 q j) (fun b => match b with
    | ⟨0, _⟩ => rfl
    | ⟨1, _⟩ => rfl)

/-- At region 1's exit its output array holds the reference's first linear map. -/
theorem xw1_eq (c : Dev nD) : (W4 m ρ c (Proc.devRef .tc main_v10) : Mat 50000 256)
    = Cert.ReferenceIdeal.ReadP.val_main_v14 (F := Ideal) (m ((c.tc : Thread nD τ).loc main_arg0))
        (m ((c.tc : Thread nD τ).loc main_arg2)) (m ((c.tc : Thread nD τ).loc main_arg3)) (m ((c.tc : Thread nD τ).loc main_arg4)) := by
  refine mat_ext fun r q => ?_
  rw [Cert.ReferenceIdeal.StagesA.v14_entry, ← x0_eq m ρ c]
  refine (congrFun (W4_arr m ρ c 2) (ix2 r q)).trans ((Cert.KernelIdeal.Region1.out_apply (V3 m ρ) c r q).trans ?_)
  show colDot (W3 m ρ c (Proc.devRef .tc main_v7)) (W3 m ρ c (Proc.devRef .tc main_v9)) r q = _
  rw [W3_v7]
  exact colDot_eq_rowDot (W3_v9 m ρ c) r q

end Cert.KernelIdeal.Walk

end
-- ==== Proof.KCarry.lean ====
/-
  The buffers the kernel's regions and host stretches read, at the boundary where they are read. A buffer that no
  segment in between writes holds at a later boundary what it held at an earlier one (or at the launch). A weight
  matrix is handed to its region transposed and narrowed to bf16 by the host stretch before it: entry (j, q) of that
  buffer is the argument's entry (q, j), the narrowing being the identity on the extended reals. A bias vector is
  handed over reshaped to one row: entry (0, q) of that buffer is the argument's entry q.
-/
import proofs.«421336_j43198781063543_1_alg».proof.Proof.KWalkA
import Idealize.ShloMosaic.Lib.Pipeline.Value
import Idealize.ShloMosaic.Lib.ValueIdx
import Idealize.ShloMosaic.Lib.StableHlo.Run

set_option maxRecDepth 16384

noncomputable section

namespace Cert.KernelIdeal.Walk

open Cert.KernelIdeal Cert.KernelIdeal.Gen Cert.Gnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Buffers carried through segments that do not write them -/

theorem W4_v1 (c : Dev nD) : W4 m ρ c (Proc.devRef .tc main_v1) = W1 m ρ c (Proc.devRef .tc main_v1) := by walk_back
theorem W5_v3 (c : Dev nD) : W5 m ρ c (Proc.devRef .tc main_v3) = W1 m ρ c (Proc.devRef .tc main_v3) := by walk_back
theorem W6_v7 (c : Dev nD) : W6 m ρ c (Proc.devRef .tc main_v7) = W2 m ρ c (Proc.devRef .tc main_v7) := by walk_back
theorem W5_arg5 (c : Dev nD) : W5 m ρ c (Proc.devRef .tc main_arg5) = m ((c.tc : Thread nD τ).loc main_arg5) := by walk_back
theorem W5_arg6 (c : Dev nD) : W5 m ρ c (Proc.devRef .tc main_arg6) = m ((c.tc : Thread nD τ).loc main_arg6) := by walk_back
theorem W6_arg1 (c : Dev nD) : W6 m ρ c (Proc.devRef .tc main_arg1) = m ((c.tc : Thread nD τ).loc main_arg1) := by walk_back
theorem W8_v14 (c : Dev nD) : W8 m ρ c (Proc.devRef .tc main_v14) = W6 m ρ c (Proc.devRef .tc main_v14) := by walk_back
theorem W8_v18 (c : Dev nD) : W8 m ρ c (Proc.devRef .tc main_v18) = W7 m ρ c (Proc.devRef .tc main_v18) := by walk_back
theorem W7_arg7 (c : Dev nD) : W7 m ρ c (Proc.devRef .tc main_arg7) = m ((c.tc : Thread nD τ).loc main_arg7) := by walk_back
theorem W7_arg8 (c : Dev nD) : W7 m ρ c (Proc.devRef .tc main_arg8) = m ((c.tc : Thread nD τ).loc main_arg8) := by walk_back
theorem W10_v22 (c : Dev nD) : W10 m ρ c (Proc.devRef .tc main_v22) = W9 m ρ c (Proc.devRef .tc main_v22) := by walk_back
theorem W9_arg9 (c : Dev nD) : W9 m ρ c (Proc.devRef .tc main_arg9) = m ((c.tc : Thread nD τ).loc main_arg9) := by walk_back
theorem W11_v1 (c : Dev nD) : W11 m ρ c (Proc.devRef .tc main_v1) = W1 m ρ c (Proc.devRef .tc main_v1) := by walk_back
theorem W12_v3 (c : Dev nD) : W12 m ρ c (Proc.devRef .tc main_v3) = W1 m ρ c (Proc.devRef .tc main_v3) := by walk_back
theorem W13_v22 (c : Dev nD) : W13 m ρ c (Proc.devRef .tc main_v22) = W9 m ρ c (Proc.devRef .tc main_v22) := by walk_back
theorem W12_arg10 (c : Dev nD) : W12 m ρ c (Proc.devRef .tc main_arg10) = m ((c.tc : Thread nD τ).loc main_arg10) := by walk_back
theorem W12_arg11 (c : Dev nD) : W12 m ρ c (Proc.devRef .tc main_arg11) = m ((c.tc : Thread nD τ).loc main_arg11) := by walk_back
theorem W13_arg1 (c : Dev nD) : W13 m ρ c (Proc.devRef .tc main_arg1) = m ((c.tc : Thread nD τ).loc main_arg1) := by walk_back
theorem W15_v29 (c : Dev nD) : W15 m ρ c (Proc.devRef .tc main_v29) = W13 m ρ c (Proc.devRef .tc main_v29) := by walk_back
theorem W15_v33 (c : Dev nD) : W15 m ρ c (Proc.devRef .tc main_v33) = W14 m ρ c (Proc.devRef .tc main_v33) := by walk_back
theorem W14_arg12 (c : Dev nD) : W14 m ρ c (Proc.devRef .tc main_arg12) = m ((c.tc : Thread nD τ).loc main_arg12) := by walk_back
theorem W14_arg13 (c : Dev nD) : W14 m ρ c (Proc.devRef .tc main_arg13) = m ((c.tc : Thread nD τ).loc main_arg13) := by walk_back

/-! ## Transposed weights and bias rows, entry by entry -/

theorem W6_v16_eq (c : Dev nD) : (W6 m ρ c (Proc.devRef .tc main_v16) : FVec Ideal S256x64 .bf16)
    = truncf (F := Ideal) .bf16 (transpose S256x64 [1, 0] (W5 m ρ c (Proc.devRef .tc main_arg5)) transposes_S64x256_S256x64_1_0) bitsLt_bf16_f32 := by
  show StableHlo.after _ (W5 m ρ c) (Proc.devRef .tc main_v16) = _
  after_results <;> rfl

theorem W6_v16 (c : Dev nD) (j : Fin 256) (q : Fin 64) :
    W6 m ρ c (Proc.devRef .tc main_v16) (ix2 j q) = m ((c.tc : Thread nD τ).loc main_arg5) (ix2 q j) := by
  rw [W6_v16_eq, W5_arg5]
  exact transpose_apply [1, 0] _ transposes_S64x256_S256x64_1_0 (ix2 j q) (ix2 q j) (fun b => match b with
    | ⟨0, _⟩ => rfl
    | ⟨1, _⟩ => rfl)

theorem W8_v20_eq (c : Dev nD) : (W8 m ρ c (Proc.devRef .tc main_v20) : FVec Ideal S256x64 .bf16)
    = truncf (F := Ideal) .bf16 (transpose S256x64 [1, 0] (W7 m ρ c (Proc.devRef .tc main_arg7)) transposes_S64x256_S256x64_1_0) bitsLt_bf16_f32 := by
  show StableHlo.after _ (W7 m ρ c) (Proc.devRef .tc main_v20) = _
  after_results <;> rfl

theorem W8_v20 (c : Dev nD) (j : Fin 256) (q : Fin 64) :
    W8 m ρ c (Proc.devRef .tc main_v20) (ix2 j q) = m ((c.tc : Thread nD τ).loc main_arg7) (ix2 q j) := by
  rw [W8_v20_eq, W7_arg7]
  exact transpose_apply [1, 0] _ transposes_S64x256_S256x64_1_0 (ix2 j q) (ix2 q j) (fun b => match b with
    | ⟨0, _⟩ => rfl
    | ⟨1, _⟩ => rfl)

theorem W10_v24_eq (c : Dev nD) : (W10 m ρ c (Proc.devRef .tc main_v24) : FVec Ideal S64x64 .bf16)
    = truncf (F := Ideal) .bf16 (transpose S64x64 [1, 0] (W9 m ρ c (Proc.devRef .tc main_arg9)) transposes_S64x64_S64x64_1_0) bitsLt_bf16_f32 := by
  show StableHlo.after _ (W9 m ρ c) (Proc.devRef .tc main_v24) = _
  after_results <;> rfl

theorem W10_v24 (c : Dev nD) (j : Fin 64) (q : Fin 64) :
    W10 m ρ c (Proc.devRef .tc main_v24) (ix2 j q) = m ((c.tc : Thread nD τ).loc main_arg9) (ix2 q j) := by
  rw [W10_v24_eq, W9_arg9]
  exact transpose_apply [1, 0] _ transposes_S64x64_S64x64_1_0 (ix2 j q) (ix2 q j) (fun b => match b with
    | ⟨0, _⟩ => rfl
    | ⟨1, _⟩ => rfl)

theorem W13_v31_eq (c : Dev nD) : (W13 m ρ c (Proc.devRef .tc main_v31) : FVec Ideal S64x64 .bf16)
    = truncf (F := Ideal) .bf16 (transpose S64x64 [1, 0] (W12 m ρ c (Proc.devRef .tc main_arg10)) transposes_S64x64_S64x64_1_0) bitsLt_bf16_f32 := by
  show StableHlo.after _ (W12 m ρ c) (Proc.devRef .tc main_v31) = _
  after_results <;> rfl

theorem W13_v31 (c : Dev nD) (j : Fin 64) (q : Fin 64) :
    W13 m ρ c (Proc.devRef .tc main_v31) (ix2 j q) = m ((c.tc : Thread nD τ).loc main_arg10) (ix2 q j) := by
  rw [W13_v31_eq, W12_arg10]
  exact transpose_apply [1, 0] _ transposes_S64x64_S64x64_1_0 (ix2 j q) (ix2 q j) (fun b => match b with
    | ⟨0, _⟩ => rfl
    | ⟨1, _⟩ => rfl)

theorem W15_v35_eq (c : Dev nD) : (W15 m ρ c (Proc.devRef .tc main_v35) : FVec Ideal S64x64 .bf16)
    = truncf (F := Ideal) .bf16 (transpose S64x64 [1, 0] (W14 m ρ c (Proc.devRef .tc main_arg12)) transposes_S64x64_S64x64_1_0) bitsLt_bf16_f32 := by
  show StableHlo.after _ (W14 m ρ c) (Proc.devRef .tc main_v35) = _
  after_results <;> rfl

theorem W15_v35 (c : Dev nD) (j : Fin 64) (q : Fin 64) :
    W15 m ρ c (Proc.devRef .tc main_v35) (ix2 j q) = m ((c.tc : Thread nD τ).loc main_arg12) (ix2 q j) := by
  rw [W15_v35_eq, W14_arg12]
  exact transpose_apply [1, 0] _ transposes_S64x64_S64x64_1_0 (ix2 j q) (ix2 q j) (fun b => match b with
    | ⟨0, _⟩ => rfl
    | ⟨1, _⟩ => rfl)

theorem W6_v17_eq (c : Dev nD) : (W6 m ρ c (Proc.devRef .tc main_v17) : FVec Ideal S1x64 .f32)
    = shapeCast S1x64 (W5 m ρ c (Proc.devRef .tc main_arg6)) shapeCasts_S64_S1x64 := by
  show StableHlo.after _ (W5 m ρ c) (Proc.devRef .tc main_v17) = _
  after_results <;> rfl

theorem W6_v17 (c : Dev nD) (q : Fin 64) :
    W6 m ρ c (Proc.devRef .tc main_v17) (ix2 (0 : Fin 1) q) = m ((c.tc : Thread nD τ).loc main_arg6) (ix1 q) := by
  rw [W6_v17_eq, W5_arg6]
  exact shapeCast_apply _ shapeCasts_S64_S1x64 (ix2 (0 : Fin 1) q) (ix1 q)
    (by rw [Shape.rowMajor_val_two, Shape.rowMajor_val_one]; show q.val = 0 * 64 + q.val; omega)

theorem W8_v21_eq (c : Dev nD) : (W8 m ρ c (Proc.devRef .tc main_v21) : FVec Ideal S1x64 .f32)
    = shapeCast S1x64 (W7 m ρ c (Proc.devRef .tc main_arg8)) shapeCasts_S64_S1x64 := by
  show StableHlo.after _ (W7 m ρ c) (Proc.devRef .tc main_v21) = _
  after_results <;> rfl

theorem W8_v21 (c : Dev nD) (q : Fin 64) :
    W8 m ρ c (Proc.devRef .tc main_v21) (ix2 (0 : Fin 1) q) = m ((c.tc : Thread nD τ).loc main_arg8) (ix1 q) := by
  rw [W8_v21_eq, W7_arg8]
  exact shapeCast_apply _ shapeCasts_S64_S1x64 (ix2 (0 : Fin 1) q) (ix1 q)
    (by rw [Shape.rowMajor_val_two, Shape.rowMajor_val_one]; show q.val = 0 * 64 + q.val; omega)

theorem W13_v32_eq (c : Dev nD) : (W13 m ρ c (Proc.devRef .tc main_v32) : FVec Ideal S1x64 .f32)
    = shapeCast S1x64 (W12 m ρ c (Proc.devRef .tc main_arg11)) shapeCasts_S64_S1x64 := by
  show StableHlo.after _ (W12 m ρ c) (Proc.devRef .tc main_v32) = _
  after_results <;> rfl

theorem W13_v32 (c : Dev nD) (q : Fin 64) :
    W13 m ρ c (Proc.devRef .tc main_v32) (ix2 (0 : Fin 1) q) = m ((c.tc : Thread nD τ).loc main_arg11) (ix1 q) := by
  rw [W13_v32_eq, W12_arg11]
  exact shapeCast_apply _ shapeCasts_S64_S1x64 (ix2 (0 : Fin 1) q) (ix1 q)
    (by rw [Shape.rowMajor_val_two, Shape.rowMajor_val_one]; show q.val = 0 * 64 + q.val; omega)

theorem W15_v36_eq (c : Dev nD) : (W15 m ρ c (Proc.devRef .tc main_v36) : FVec Ideal S1x64 .f32)
    = shapeCast S1x64 (W14 m ρ c (Proc.devRef .tc main_arg13)) shapeCasts_S64_S1x64 := by
  show StableHlo.after _ (W14 m ρ c) (Proc.devRef .tc main_v36) = _
  after_results <;> rfl

theorem W15_v36 (c : Dev nD) (q : Fin 64) :
    W15 m ρ c (Proc.devRef .tc main_v36) (ix2 (0 : Fin 1) q) = m ((c.tc : Thread nD τ).loc main_arg13) (ix1 q) := by
  rw [W15_v36_eq, W14_arg13]
  exact shapeCast_apply _ shapeCasts_S64_S1x64 (ix2 (0 : Fin 1) q) (ix1 q)
    (by rw [Shape.rowMajor_val_two, Shape.rowMajor_val_one]; show q.val = 0 * 64 + q.val; omega)

end Cert.KernelIdeal.Walk

end
-- ==== Proof.KReg2.lean ====
import proofs.«421336_j43198781063543_1_alg».proof.Proof.Gen.KernelIdeal.Frame
import proofs.«421336_j43198781063543_1_alg».proof.Proof.Spec
import proofs.«421336_j43198781063543_1_alg».proof.Proof.LibDotPlain
import proofs.«421336_j43198781063543_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's store, entry by entry -/

/-- The block product at an entry: the row of the left block against the column of the right block. -/
theorem dot_apply (A : FVec Ideal S2000x256 .bf16) (B : FVec Ideal S256x64 .bf16) (a : Fin 2000) (b : Fin 64) :
    matmul dot_S2000x256_S256x64_S2000x64_1_0_0_1_n_n none A B (constant (F := Ideal) S2000x64 .f32 0x00000000#32) (ix2 a b)
      = ∑ c : Fin 256, A (ix2 a c) * B (ix2 c b) :=
  Cert.LibDotPlain.matmul_zero_apply dot_S2000x256_S256x64_S2000x64_1_0_0_1_n_n_wf none A B a b

/-- The body's one store at an entry of the block: the skip branch of the loaded blocks. The casts of a shape to itself and
    the narrowing of the activations are the identity on the extended reals, the bias row is repeated along the rows, and the
    comparison, the product with the slope and the selection are the leaky rectifier's own. -/
theorem pay_apply (x0 : FVec Ideal S2000x256 .f32) (x1 : FVec Ideal S256x64 .bf16) (x2 : FVec Ideal S1x64 .f32) (x3 : FVec Ideal S2000x64 .f32)
    (a : Fin 2000) (b : Fin 64) :
    k2_pay1 (F := Ideal) x0 x1 x2 x3 (ix2 a b) = skipK x0 x1 x2 x3 a b := by
  unfold k2_pay1
  simp only [shapeCast_self]
  rw [addf_apply, select_apply, cmpf_apply, mulf_apply, broadcast_apply, broadcast_apply, addf_apply,
    broadcastTo_1b_ab_apply, dot_apply]
  simp only [truncf_apply, Ideal.ofBits_def, Ideal.cmpf_def]
  rfl

/-! ## From the blocks to the arrays -/

/-- The zero offsets of a whole-block access, as a constant function. -/
theorem hz : (![0, 0] : Fin 2 → Nat) = fun _ => 0 := funext fun a => by fin_cases a <;> rfl

/-- The first layer's skip branch of the arrays as the region finds them, as one array. -/
def G (c : Dev nD) : Mat 50000 64 :=
  ofEntries (skipK (V c main_v7) (V c main_v16) (V c main_v17) (V c main_arg1))

/-- The index maps over the grid: the row-blocked windows (activations, identity embedding, output) sit at block row `t`,
    block column 0; the weight and the bias windows at block (0, 0); and the grid has 25 points. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 ∧ t.val < 25 :=
  (by decide +kernel : ∀ t : Fin grid2.N, _)

/-- Row `a` of block `t` is row `2000 t + a` of the array. -/
def rowOf (t : Fin cfg2.N) (a : Fin 2000) : Fin 50000 :=
  ⟨t.val * 2000 + a.val, by have := (idx_facts t).2.2.2.2.2.2.2.2.2.2; have := a.isLt; omega⟩

/-- Where an entry of the output's block lies in the output array: a block's coordinate is its block index times the
    block's extent plus the coordinate inside the block. -/
theorem emb_out (t : Fin cfg2.N) (a : Fin 2000) (b : Fin 64) :
    ((cfg2.win 4).blk t).view.emb (ix2 a b) = ix2 (rowOf t a) b := by
  obtain ⟨e0, e1, e2, e3, e4, e5, e6, e7, e8, e9, -⟩ := idx_facts t
  funext ax; apply Fin.ext
  match ax with
  | ⟨0, _⟩ => show win2_4.index t (0 : Fin 2) * 2000 + 1 * a.val = t.val * 2000 + a.val; omega
  | ⟨1, _⟩ => show win2_4.index t (1 : Fin 2) * 64 + 1 * b.val = b.val; omega

/-- The activations' block lies on the same rows, over all 256 columns. -/
theorem emb_act (t : Fin cfg2.N) (a : Fin 2000) (j : Fin 256) :
    ((cfg2.win 0).blk t).view.emb (ix2 a j) = ix2 (rowOf t a) j := by
  obtain ⟨e0, e1, e2, e3, e4, e5, e6, e7, e8, e9, -⟩ := idx_facts t
  funext ax; apply Fin.ext
  match ax with
  | ⟨0, _⟩ => show win2_0.index t (0 : Fin 2) * 2000 + 1 * a.val = t.val * 2000 + a.val; omega
  | ⟨1, _⟩ => show win2_0.index t (1 : Fin 2) * 256 + 1 * j.val = j.val; omega

/-- The weights' block is the whole weight matrix. -/
theorem emb_wt (t : Fin cfg2.N) (j : Fin 256) (b : Fin 64) :
    ((cfg2.win 1).blk t).view.emb (ix2 j b) = ix2 j b := by
  obtain ⟨e0, e1, e2, e3, e4, e5, e6, e7, e8, e9, -⟩ := idx_facts t
  funext ax; apply Fin.ext
  match ax with
  | ⟨0, _⟩ => show win2_1.index t (0 : Fin 2) * 256 + 1 * j.val = j.val; omega
  | ⟨1, _⟩ => show win2_1.index t (1 : Fin 2) * 64 + 1 * b.val = b.val; omega

/-- The bias' block is the whole bias row. -/
theorem emb_bias (t : Fin cfg2.N) (u : Fin 1) (b : Fin 64) :
    ((cfg2.win 2).blk t).view.emb (ix2 u b) = ix2 u b := by
  obtain ⟨e0, e1, e2, e3, e4, e5, e6, e7, e8, e9, -⟩ := idx_facts t
  funext ax; apply Fin.ext
  match ax with
  | ⟨0, _⟩ => show win2_2.index t (0 : Fin 2) * 1 + 1 * u.val = u.val; omega
  | ⟨1, _⟩ => show win2_2.index t (1 : Fin 2) * 64 + 1 * b.val = b.val; omega

/-- The identity embedding's block lies exactly where the output's does. -/
theorem emb_idn (t : Fin cfg2.N) (a : Fin 2000) (b : Fin 64) :
    ((cfg2.win 3).blk t).view.emb (ix2 a b) = ix2 (rowOf t a) b := by
  obtain ⟨e0, e1, e2, e3, e4, e5, e6, e7, e8, e9, -⟩ := idx_facts t
  funext ax; apply Fin.ext
  match ax with
  | ⟨0, _⟩ => show win2_3.index t (0 : Fin 2) * 2000 + 1 * a.val = t.val * 2000 + a.val; omega
  | ⟨1, _⟩ => show win2_3.index t (1 : Fin 2) * 64 + 1 * b.val = b.val; omega

/-- Each loaded block, entry by entry, is the entry of its array that the block's rectangle names. -/
theorem blk_act (c : Dev nD) (t : Fin cfg2.N) (a : Fin 2000) (j : Fin 256) :
    iblk2 (F := Ideal) V c 0 t (ix2 a j) = V c main_v7 (ix2 (rowOf t a) j) :=
  congrArg (V c main_v7) (emb_act t a j)

theorem blk_wt (c : Dev nD) (t : Fin cfg2.N) (j : Fin 256) (b : Fin 64) :
    iblk2 (F := Ideal) V c 1 t (ix2 j b) = V c main_v16 (ix2 j b) :=
  congrArg (V c main_v16) (emb_wt t j b)

theorem blk_bias (c : Dev nD) (t : Fin cfg2.N) (u : Fin 1) (b : Fin 64) :
    iblk2 (F := Ideal) V c 2 t (ix2 u b) = V c main_v17 (ix2 u b) :=
  congrArg (V c main_v17) (emb_bias t u b)

theorem blk_idn (c : Dev nD) (t : Fin cfg2.N) (a : Fin 2000) (b : Fin 64) :
    iblk2 (F := Ideal) V c 3 t (ix2 a b) = V c main_arg1 (ix2 (rowOf t a) b) :=
  congrArg (V c main_arg1) (emb_idn t a b)

/-- What grid point `t` writes back is block `t` of the skip branch of the arrays: the body's store is the skip branch of
    the loaded blocks, and each block's entry is its array's entry on row `2000 t + a`. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S2000x256) hz, View.ld_unit_zero (S := S256x64) hz, View.ld_unit_zero (S := S1x64) hz, View.ld_unit_zero (S := S2000x64) hz]
  funext y
  obtain ⟨a, b, rfl⟩ : ∃ (a : Fin 2000) (b : Fin 64), y = ix2 a b := ⟨y 0, y 1, eq_ix2 y⟩
  show k2_pay1 (F := Ideal) (iblk2 V c 0 t) (iblk2 V c 1 t) (iblk2 V c 2 t) (iblk2 V c 3 t) (ix2 a b)
    = G V c (((cfg2.win 4).blk t).view.emb (ix2 a b))
  rw [pay_apply, emb_out]
  show _ = skipK (V c main_v7) (V c main_v16) (V c main_v17) (V c main_arg1) (rowOf t a) b
  unfold skipK colDot
  simp only [blk_act, blk_wt, blk_bias, blk_idn]

/-- An index of the array is in point `t`'s block iff each coordinate is in the block's range on its axis. -/
theorem mem_blk (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v18).slice (win2_4.rect t)).set ↔ _
  rw [View.set_slice_whole, Rect.mem_set_unit]
  exact Iff.rfl

/-- Every index of the array is in some writing point's block: row `r` is in block `r / 2000`, and 25 blocks of 2000 rows
    are the 50000 rows. -/
theorem cover (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : (i 0).val / 2000 < cfg2.N := by
    show (i 0).val / 2000 < grid2.N
    rw [N_2]; omega
  refine ⟨⟨(i 0).val / 2000, hN⟩, flush2_4 _, ?_⟩
  rw [mem_blk]
  obtain ⟨e0, e1, e2, e3, e4, e5, e6, e7, e8, e9, -⟩ := idx_facts ⟨(i 0).val / 2000, hN⟩
  intro a
  match a with
  | ⟨0, _⟩ =>
    show win2_4.index ⟨(i 0).val / 2000, hN⟩ (0 : Fin 2) * 2000 ≤ (i 0).val ∧ (i 0).val < win2_4.index ⟨(i 0).val / 2000, hN⟩ (0 : Fin 2) * 2000 + 2000
    rw [e8]
    show (i 0).val / 2000 * 2000 ≤ (i 0).val ∧ (i 0).val < (i 0).val / 2000 * 2000 + 2000
    omega
  | ⟨1, _⟩ =>
    show win2_4.index ⟨(i 0).val / 2000, hN⟩ (1 : Fin 2) * 64 ≤ (i 1).val ∧ (i 1).val < win2_4.index ⟨(i 0).val / 2000, hN⟩ (1 : Fin 2) * 64 + 64
    rw [e9]
    omega

/-- The output array after the last write-back is the skip branch of the arrays as the region finds them: every point writes
    its block of it back, and the blocks cover the array. -/
theorem final (c : Dev nD) : (dat2 (F := Ideal) V c).arrAt 4 cfg2.N = G V c :=
  (dat2 (F := Ideal) V c).arrAt_eq_of_cover 4 (G V c) (fun t _ => flushed_eq V c t) cover

/-- Region 2's output array after its last write-back, entry by entry: the first layer's skip branch, of the arrays as the region finds them. -/
theorem out_apply (c : Dev nD) (r : Fin 50000) (q : Fin 64) :
    (dat2 (F := Ideal) V c).arrAt 4 cfg2.N (ix2 r q) = skipK (V c main_v7) (V c main_v16) (V c main_v17) (V c main_arg1) r q := by
  rw [final]
  rfl

end Cert.KernelIdeal.Region2

end
-- ==== Proof.KReg3.lean ====
import proofs.«421336_j43198781063543_1_alg».proof.Proof.Gen.KernelIdeal.Frame
import proofs.«421336_j43198781063543_1_alg».proof.Proof.Spec
import proofs.«421336_j43198781063543_1_alg».proof.Proof.LibDotPlain
import proofs.«421336_j43198781063543_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's stored value at an entry -/

/-- The leaky rectifier, as the program writes it on a whole block (compare with the zero block, keep the entry or scale it by the
    slope block), read at one entry. -/
theorem leaky_at {s : Shape} (x : FVec Ideal s .f32) (i : s.Idx) :
    select (cmpf .oge x (broadcast s (Scalar.ofBits (F := Ideal) .f32 0x00000000#32))) x
        (mulf (broadcast s (Scalar.ofBits (F := Ideal) .f32 0x3C23D70A#32)) x) i = leaky (x i) := rfl

/-- The product of a [2000, 256] block with the [256, 64] weights into the zero accumulator, at (a, b): the sum over the 256
    contracted coordinates. -/
theorem dot_at (A : FVec Ideal S2000x256 .bf16) (B : FVec Ideal S256x64 .bf16) (a : Fin 2000) (b : Fin 64) :
    matmul dot_S2000x256_S256x64_S2000x64_1_0_0_1_n_n none A B (constant S2000x64 .f32 0x00000000#32) (ix2 a b)
      = ∑ c : Fin 256, A (ix2 a c) * B (ix2 c b) :=
  Cert.LibDotPlain.matmul_zero_apply dot_S2000x256_S256x64_S2000x64_1_0_0_1_n_n_wf none A B a b

/-- The body's one stored value at (a, b) is the combination formula of its four loaded blocks: the rectifier of the aggregated
    block entry by entry, its product with the weights, plus the bias row, plus the skip block, and the rectifier of that sum. The
    casts of a shape to itself are the identity and the change of format is the identity on the extended reals. -/
theorem pay_apply (x0 : FVec Ideal S2000x256 .f32) (x1 : FVec Ideal S256x64 .bf16) (x2 : FVec Ideal S1x64 .f32)
    (x3 : FVec Ideal S2000x64 .f32) (a : Fin 2000) (b : Fin 64) :
    k3_pay1 (F := Ideal) x0 x1 x2 x3 (ix2 a b) = combK x0 x1 x2 x3 a b := by
  unfold k3_pay1
  simp only [shapeCast_self]
  refine (leaky_at _ _).trans ?_
  unfold combK
  refine congrArg leaky ?_
  rw [addf_apply, addf_apply, broadcastTo_1b_ab_apply, dot_at]
  refine congrArg (· + x2 (ix2 0 b) + x3 (ix2 a b)) ?_
  exact Finset.sum_congr rfl fun c _ => rfl

/-! ## Where each block sits in its array -/

/-- The zero offset on both axes. -/
theorem zero_off : (![0, 0] : Fin 2 → Nat) = fun _ => 0 := funext fun a => by fin_cases a <;> rfl

/-- The index maps over the grid: at point t the row-blocked windows (aggregated input, skip input, output) sit at block (t, 0),
    the weight and bias windows at block (0, 0). -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row a of block t is row 2000·t + a of the array. -/
def rowOf (t : Fin cfg3.N) (a : Fin 2000) : Fin 50000 :=
  ⟨t.val * 2000 + a.val, by have ht : t.val < 25 := lt_of_lt_of_eq t.isLt N_3; have := a.isLt; omega⟩

/-- Entry (a, k) of the aggregated input's block t is entry (2000·t + a, k) of its array: block index times block size plus the
    coordinate inside the block, on each axis. -/
theorem emb_agg (t : Fin cfg3.N) (a : Fin 2000) (k : Fin 256) :
    ((cfg3.win 0).blk t).view.emb (ix2 a k) = ix2 (rowOf t a) k := by
  obtain ⟨e0, e1, -⟩ := block_index t
  funext ax; apply Fin.ext
  match ax with
  | ⟨0, _⟩ => show win3_0.index t (0 : Fin 2) * 2000 + 1 * a.val = t.val * 2000 + a.val; omega
  | ⟨1, _⟩ => show win3_0.index t (1 : Fin 2) * 256 + 1 * k.val = k.val; omega

/-- The weight window's block is its whole array at every point. -/
theorem emb_weight (t : Fin cfg3.N) (k : Fin 256) (b : Fin 64) :
    ((cfg3.win 1).blk t).view.emb (ix2 k b) = ix2 k b := by
  obtain ⟨-, -, e0, e1, -⟩ := block_index t
  funext ax; apply Fin.ext
  match ax with
  | ⟨0, _⟩ => show win3_1.index t (0 : Fin 2) * 256 + 1 * k.val = k.val; omega
  | ⟨1, _⟩ => show win3_1.index t (1 : Fin 2) * 64 + 1 * b.val = b.val; omega

/-- The bias window's block is its whole one-row array at every point. -/
theorem emb_bias (t : Fin cfg3.N) (u : Fin 1) (b : Fin 64) :
    ((cfg3.win 2).blk t).view.emb (ix2 u b) = ix2 u b := by
  obtain ⟨-, -, -, -, e0, e1, -⟩ := block_index t
  funext ax; apply Fin.ext
  match ax with
  | ⟨0, _⟩ => show win3_2.index t (0 : Fin 2) * 1 + 1 * u.val = u.val; omega
  | ⟨1, _⟩ => show win3_2.index t (1 : Fin 2) * 64 + 1 * b.val = b.val; omega

/-- Entry (a, b) of the skip input's block t is entry (2000·t + a, b) of its array. -/
theorem emb_skip (t : Fin cfg3.N) (a : Fin 2000) (b : Fin 64) :
    ((cfg3.win 3).blk t).view.emb (ix2 a b) = ix2 (rowOf t a) b := by
  obtain ⟨-, -, -, -, -, -, e0, e1, -⟩ := block_index t
  funext ax; apply Fin.ext
  match ax with
  | ⟨0, _⟩ => show win3_3.index t (0 : Fin 2) * 2000 + 1 * a.val = t.val * 2000 + a.val; omega
  | ⟨1, _⟩ => show win3_3.index t (1 : Fin 2) * 64 + 1 * b.val = b.val; omega

/-- Entry (a, b) of the output's block t is entry (2000·t + a, b) of its array. -/
theorem emb_out (t : Fin cfg3.N) (a : Fin 2000) (b : Fin 64) :
    ((cfg3.win 4).blk t).view.emb (ix2 a b) = ix2 (rowOf t a) b := by
  obtain ⟨-, -, -, -, -, -, -, -, e0, e1⟩ := block_index t
  funext ax; apply Fin.ext
  match ax with
  | ⟨0, _⟩ => show win3_4.index t (0 : Fin 2) * 2000 + 1 * a.val = t.val * 2000 + a.val; omega
  | ⟨1, _⟩ => show win3_4.index t (1 : Fin 2) * 64 + 1 * b.val = b.val; omega

/-! ## An entry of each input block is an entry of its array -/

/-- The aggregated input's block t at (a, k) reads the array at (2000·t + a, k). -/
theorem agg_apply (c : Dev nD) (t : Fin cfg3.N) (a : Fin 2000) (k : Fin 256) :
    iblk3 (F := Ideal) V c 0 t (ix2 a k) = V c main_v14 (ix2 (rowOf t a) k) := by
  show V c main_v14 (((cfg3.win 0).blk t).view.emb (ix2 a k)) = _
  rw [emb_agg]

/-- The weight block at (k, b) reads the weights at (k, b). -/
theorem weight_apply (c : Dev nD) (t : Fin cfg3.N) (k : Fin 256) (b : Fin 64) :
    iblk3 (F := Ideal) V c 1 t (ix2 k b) = V c main_v20 (ix2 k b) := by
  show V c main_v20 (((cfg3.win 1).blk t).view.emb (ix2 k b)) = _
  rw [emb_weight]

/-- The bias block at (u, b) reads the bias row at (u, b). -/
theorem bias_apply (c : Dev nD) (t : Fin cfg3.N) (u : Fin 1) (b : Fin 64) :
    iblk3 (F := Ideal) V c 2 t (ix2 u b) = V c main_v21 (ix2 u b) := by
  show V c main_v21 (((cfg3.win 2).blk t).view.emb (ix2 u b)) = _
  rw [emb_bias]

/-- The skip input's block t at (a, b) reads the array at (2000·t + a, b). -/
theorem skip_apply (c : Dev nD) (t : Fin cfg3.N) (a : Fin 2000) (b : Fin 64) :
    iblk3 (F := Ideal) V c 3 t (ix2 a b) = V c main_v18 (ix2 (rowOf t a) b) := by
  show V c main_v18 (((cfg3.win 3).blk t).view.emb (ix2 a b)) = _
  rw [emb_skip]

/-! ## What each point writes back -/

/-- The output array as one function of the arrays the region finds: the combination formula at every entry. -/
def combined (c : Dev nD) : Mat 50000 64 :=
  ofEntries (combK (V c main_v14) (V c main_v20) (V c main_v21) (V c main_v18))

/-- What the body leaves in the output window's buffer at point t: its one stored value, of the four input blocks (the one store
    covers the whole buffer, each load reads a whole block). -/
theorem stored_eq (c : Dev nD) (t : Fin cfg3.N) :
    (dat3 (F := Ideal) V c).after 4 t
      = k3_pay1 (F := Ideal) (iblk3 V c 0 t) (iblk3 V c 1 t) (iblk3 V c 2 t) (iblk3 V c 3 t) := by
  rw [after3_4]
  unfold out3_4
  rw [View.canon_unit_zero zero_off]
  simp only [View.ld_unit_zero (S := S2000x256) zero_off, View.ld_unit_zero (S := S256x64) zero_off,
    View.ld_unit_zero (S := S1x64) zero_off, View.ld_unit_zero (S := S2000x64) zero_off]

/-- The output's blocks all lie inside the array, so a write-back moves the whole buffer. -/
theorem writeback_whole (X : FVec Ideal S2000x64 .f32) (t : Fin cfg3.N) (j : S2000x64.Idx) :
    (cfg3.win 4).cut (grid3.coords t) X j = X j := rfl

/-- Block t of a whole [50000, 64] array, at (a, b), is the array at (2000·t + a, b). -/
theorem read_block (Gf : Mat 50000 64) (t : Fin cfg3.N) (a : Fin 2000) (b : Fin 64) :
    ((cfg3.win 4).blk t).view.read (Elt Ideal) Gf (ix2 a b) = Gf (ix2 (rowOf t a) b) := by
  show Gf (((cfg3.win 4).blk t).view.emb (ix2 a b)) = _
  rw [emb_out]

/-- The combination formula of the four blocks at point t is the formula of the four arrays at the block's rows: every block
    entry it reads is the array's entry at the same row of the array. -/
theorem comb_blocks (c : Dev nD) (t : Fin cfg3.N) (a : Fin 2000) (b : Fin 64) :
    combK (iblk3 (F := Ideal) V c 0 t) (iblk3 (F := Ideal) V c 1 t) (iblk3 (F := Ideal) V c 2 t) (iblk3 (F := Ideal) V c 3 t) a b
      = combK (V c main_v14) (V c main_v20) (V c main_v21) (V c main_v18) (rowOf t a) b := by
  unfold combK
  simp only [agg_apply V c t, weight_apply V c t, bias_apply V c t, skip_apply V c t]

/-- What point t writes back is block t of the whole-array function. -/
theorem flushed_eq (c : Dev nD) (t : Fin cfg3.N) :
    (dat3 (F := Ideal) V c).flushed 4 t = ((cfg3.win 4).blk t).view.read (Elt Ideal) (combined V c) := by
  show (cfg3.win 4).cut (grid3.coords t) ((dat3 (F := Ideal) V c).after 4 t) = _
  rw [stored_eq]
  refine funext fun (j : S2000x64.Idx) => ?_
  obtain ⟨a, b, rfl⟩ : ∃ (a : Fin 2000) (b : Fin 64), j = ix2 a b := ⟨j 0, j 1, eq_ix2 j⟩
  refine (writeback_whole _ t (ix2 a b)).trans
    (((pay_apply _ _ _ _ a b).trans ?_).trans (read_block (combined V c) t a b).symm)
  exact comb_blocks V c t a b

/-! ## The blocks tile the array -/

/-- An index of the output array is in point t's block iff each coordinate is in the block's range on its axis. -/
theorem mem_blk (t : Fin cfg3.N) (i : S50000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v22).slice (win3_4.rect t)).set ↔ _
  rw [View.set_slice_whole, Rect.mem_set_unit]
  exact Iff.rfl

/-- Every entry of the output array is written back by some point: row r by point r / 2000, which is below 25 as r is below
    50000, and 2000·(r / 2000) ≤ r < 2000·(r / 2000) + 2000. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨-, -, -, -, -, -, -, -, e0, e1⟩ := block_index t
  refine ⟨t, flush3_4 t, ?_⟩
  rw [mem_blk]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 64 ≤ (i 1).val ∧ (i 1).val < win3_4.index t (1 : Fin 2) * 64 + 64
    omega

/-- The output array after the last write-back is the whole-array function: every point writes back its block of it, and the
    blocks cover the array. -/
theorem array_eq (c : Dev nD) : (dat3 (F := Ideal) V c).arrAt 4 cfg3.N = combined V c :=
  (dat3 (F := Ideal) V c).arrAt_eq_of_cover 4 (combined V c) (fun t _ => flushed_eq V c t) cover

/-- Region 3's output array after its last write-back, entry by entry: the first layer's combination of the aggregated neighbourhood with the skip branch, of the arrays as the region finds them. -/
theorem out_apply (c : Dev nD) (r : Fin 50000) (q : Fin 64) :
    (dat3 (F := Ideal) V c).arrAt 4 cfg3.N (ix2 r q) = combK (V c main_v14) (V c main_v20) (V c main_v21) (V c main_v18) r q := by
  rw [array_eq]
  rfl

end Cert.KernelIdeal.Region3

end
-- ==== Proof.RefStagesB.lean ====
import proofs.«421336_j43198781063543_1_alg».proof.Proof.RefReadP
import proofs.«421336_j43198781063543_1_alg».proof.Proof.Spec
import Idealize.ShloMosaic.Lib.ValueIdx
import Idealize.ShloMosaic.PureOps.Ideal.Laws

noncomputable section

open scoped BigOperators

namespace Cert.ReferenceIdeal.StagesB

open Cert.ReferenceIdeal Cert.ReferenceIdeal.ReadP Cert.Gnn
open Idealize.ShloMosaic Idealize.ShloMosaic.ValueIdx

/-- The leaky rectifier of the first layer's aggregated neighbourhood: the reference selects between a value that is at least zero and its multiple by the slope. -/
theorem v33_eq (x0 : (⟨S50000x4096, .f32⟩ : BufTy).Contents (Elt Ideal)) (x2 : (⟨S256x4096, .f32⟩ : BufTy).Contents (Elt Ideal)) (x3 : (⟨S256, .f32⟩ : BufTy).Contents (Elt Ideal)) (x4 : (⟨S256x256, .f32⟩ : BufTy).Contents (Elt Ideal)) (x14 : (⟨S2x800000, .i32⟩ : BufTy).Contents (Elt Ideal)) :
    val_main_v33 (F := Ideal) x0 x2 x3 x4 x14 = fun i => leaky (val_main_v28 (F := Ideal) x0 x2 x3 x4 x14 i) := by
  funext i
  rw [val_main_v33_apply, val_main_v30_apply, val_main_v32_apply, val_main_v29_apply, val_main_cst_3_apply, val_main_v31_apply, val_main_cst_4_apply]
  generalize val_main_v28 (F := Ideal) x0 x2 x3 x4 x14 i = y
  unfold leaky
  simp only [Ideal.addf_def, Ideal.mulf_def, Ideal.ofBits_def, Ideal.cmpf_def]

/-- The leaky rectifier of the second layer's aggregated neighbourhood: the same selection between a value and its multiple by the slope. -/
theorem v76_eq (x0 : (⟨S50000x4096, .f32⟩ : BufTy).Contents (Elt Ideal)) (x1 : (⟨S50000x64, .f32⟩ : BufTy).Contents (Elt Ideal)) (x2 : (⟨S256x4096, .f32⟩ : BufTy).Contents (Elt Ideal)) (x3 : (⟨S256, .f32⟩ : BufTy).Contents (Elt Ideal)) (x4 : (⟨S256x256, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal)) (x8 : (⟨S64, .f32⟩ : BufTy).Contents (Elt Ideal)) (x9 : (⟨S64x64, .f32⟩ : BufTy).Contents (Elt Ideal)) (x14 : (⟨S2x800000, .i32⟩ : BufTy).Contents (Elt Ideal)) :
    val_main_v76 (F := Ideal) x0 x1 x2 x3 x4 x5 x6 x7 x8 x9 x14 = fun i => leaky (val_main_v71 (F := Ideal) x0 x1 x2 x3 x4 x5 x6 x7 x8 x9 x14 i) := by
  funext i
  rw [val_main_v76_apply, val_main_v73_apply, val_main_v75_apply, val_main_v72_apply, val_main_cst_12_apply, val_main_v74_apply, val_main_cst_13_apply]
  generalize val_main_v71 (F := Ideal) x0 x1 x2 x3 x4 x5 x6 x7 x8 x9 x14 i = y
  unfold leaky
  simp only [Ideal.addf_def, Ideal.mulf_def, Ideal.ofBits_def, Ideal.cmpf_def]

/-- The first layer's skip branch, entry by entry. -/
theorem v44_entry (x0 : (⟨S50000x4096, .f32⟩ : BufTy).Contents (Elt Ideal)) (x1 : (⟨S50000x64, .f32⟩ : BufTy).Contents (Elt Ideal)) (x2 : (⟨S256x4096, .f32⟩ : BufTy).Contents (Elt Ideal)) (x3 : (⟨S256, .f32⟩ : BufTy).Contents (Elt Ideal)) (x5 : (⟨S64x256, .f32⟩ : BufTy).Contents (Elt Ideal)) (x6 : (⟨S64, .f32⟩ : BufTy).Contents (Elt Ideal)) (r : Fin 50000) (c : Fin 64) :
    val_main_v44 (F := Ideal) x0 x1 x2 x3 x5 x6 (ix2 r c) = skipS (val_main_v12 (F := Ideal) x0 x2 x3) x5 x6 x1 r c := by
  -- the product's left operand is read at row r, column k
  have hl : ∀ k : Fin 256, lidx_main_v35 (ix2 r c) k = ix2 r k := fun k => funext fun a => Fin.ext (by
    match a with
    | ⟨0, _⟩ => rfl
    | ⟨1, _⟩ => rfl)
  -- the transposed weight at (k, c) is the stored weight at (c, k)
  have hr : ∀ k : Fin 256, idx_main_v34 (ridx_main_v35 (ix2 r c) k) = ix2 c k := fun k => funext fun a => Fin.ext (by
    match a with
    | ⟨0, _⟩ => rfl
    | ⟨1, _⟩ => rfl)
  -- the bias, broadcast along the rows, is read at column c
  have hb : idx_main_v36 (idx_main_v37 (ix2 r c)) = ix1 c := funext fun a => Fin.ext (by
    match a with
    | ⟨0, _⟩ => rfl)
  rw [val_main_v44_apply, val_main_v43_apply, val_main_v40_apply, val_main_v42_apply, val_main_v38_apply, val_main_v35_apply]
  generalize val_main_v12 (F := Ideal) x0 x2 x3 = Y
  simp only [val_main_v34_apply, val_main_v37_apply, val_main_v36_apply, val_main_v39_apply, val_main_cst_5_apply, val_main_v41_apply, val_main_cst_6_apply]
  unfold skipS leaky rowDot
  simp only [hl, hr, hb, Ideal.addf_def, Ideal.mulf_def, Ideal.ofBits_def, Ideal.cmpf_def]

/-- The first layer's output: the aggregated neighbourhood (the scatter-add's result) combined with the skip branch, entry by entry. -/
theorem v55_entry (x0 : (⟨S50000x4096, .f32⟩ : BufTy).Contents (Elt Ideal)) (x1 : (⟨S50000x64, .f32⟩ : BufTy).Contents (Elt Ideal)) (x2 : (⟨S256x4096, .f32⟩ : BufTy).Contents (Elt Ideal)) (x3 : (⟨S256, .f32⟩ : BufTy).Contents (Elt Ideal)) (x4 : (⟨S256x256, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal)) (x8 : (⟨S64, .f32⟩ : BufTy).Contents (Elt Ideal)) (x14 : (⟨S2x800000, .i32⟩ : BufTy).Contents (Elt Ideal)) (r : Fin 50000) (c : Fin 64) :
    val_main_v55 (F := Ideal) x0 x1 x2 x3 x4 x5 x6 x7 x8 x14 (ix2 r c) = combS (val_main_v28 (F := Ideal) x0 x2 x3 x4 x14) x7 x8 (val_main_v44 (F := Ideal) x0 x1 x2 x3 x5 x6) r c := by
  -- the product's left operand is read at row r, column k
  have hl : ∀ k : Fin 256, lidx_main_v46 (ix2 r c) k = ix2 r k := fun k => funext fun a => Fin.ext (by
    match a with
    | ⟨0, _⟩ => rfl
    | ⟨1, _⟩ => rfl)
  -- the transposed weight at (k, c) is the stored weight at (c, k)
  have hr : ∀ k : Fin 256, idx_main_v45 (ridx_main_v46 (ix2 r c) k) = ix2 c k := fun k => funext fun a => Fin.ext (by
    match a with
    | ⟨0, _⟩ => rfl
    | ⟨1, _⟩ => rfl)
  -- the bias, broadcast along the rows, is read at column c
  have hb : idx_main_v47 (idx_main_v48 (ix2 r c)) = ix1 c := funext fun a => Fin.ext (by
    match a with
    | ⟨0, _⟩ => rfl)
  rw [val_main_v55_apply, val_main_v52_apply, val_main_v54_apply, val_main_v50_apply, val_main_v49_apply, val_main_v46_apply, v33_eq]
  generalize val_main_v28 (F := Ideal) x0 x2 x3 x4 x14 = H
  generalize val_main_v44 (F := Ideal) x0 x1 x2 x3 x5 x6 = S
  simp only [val_main_v45_apply, val_main_v48_apply, val_main_v47_apply, val_main_v51_apply, val_main_cst_7_apply, val_main_v53_apply, val_main_cst_8_apply]
  unfold combS leaky
  simp only [hl, hr, hb, Ideal.addf_def, Ideal.mulf_def, Ideal.ofBits_def, Ideal.cmpf_def]

/-- The second layer's skip branch, entry by entry. -/
theorem v87_entry (x0 : (⟨S50000x4096, .f32⟩ : BufTy).Contents (Elt Ideal)) (x1 : (⟨S50000x64, .f32⟩ : BufTy).Contents (Elt Ideal)) (x2 : (⟨S256x4096, .f32⟩ : BufTy).Contents (Elt Ideal)) (x3 : (⟨S256, .f32⟩ : BufTy).Contents (Elt Ideal)) (x4 : (⟨S256x256, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal)) (x8 : (⟨S64, .f32⟩ : BufTy).Contents (Elt Ideal)) (x10 : (⟨S64x64, .f32⟩ : BufTy).Contents (Elt Ideal)) (x11 : (⟨S64, .f32⟩ : BufTy).Contents (Elt Ideal)) (x14 : (⟨S2x800000, .i32⟩ : BufTy).Contents (Elt Ideal)) (r : Fin 50000) (c : Fin 64) :
    val_main_v87 (F := Ideal) x0 x1 x2 x3 x4 x5 x6 x7 x8 x10 x11 x14 (ix2 r c) = skipS (val_main_v55 (F := Ideal) x0 x1 x2 x3 x4 x5 x6 x7 x8 x14) x10 x11 x1 r c := by
  -- the product's left operand is read at row r, column k
  have hl : ∀ k : Fin 64, lidx_main_v78 (ix2 r c) k = ix2 r k := fun k => funext fun a => Fin.ext (by
    match a with
    | ⟨0, _⟩ => rfl
    | ⟨1, _⟩ => rfl)
  -- the transposed weight at (k, c) is the stored weight at (c, k)
  have hr : ∀ k : Fin 64, idx_main_v77 (ridx_main_v78 (ix2 r c) k) = ix2 c k := fun k => funext fun a => Fin.ext (by
    match a with
    | ⟨0, _⟩ => rfl
    | ⟨1, _⟩ => rfl)
  -- the bias, broadcast along the rows, is read at column c
  have hb : idx_main_v79 (idx_main_v80 (ix2 r c)) = ix1 c := funext fun a => Fin.ext (by
    match a with
    | ⟨0, _⟩ => rfl)
  rw [val_main_v87_apply, val_main_v86_apply, val_main_v83_apply, val_main_v85_apply, val_main_v81_apply, val_main_v78_apply]
  generalize val_main_v55 (F := Ideal) x0 x1 x2 x3 x4 x5 x6 x7 x8 x14 = Y
  simp only [val_main_v77_apply, val_main_v80_apply, val_main_v79_apply, val_main_v82_apply, val_main_cst_14_apply, val_main_v84_apply, val_main_cst_15_apply]
  unfold skipS leaky rowDot
  simp only [hl, hr, hb, Ideal.addf_def, Ideal.mulf_def, Ideal.ofBits_def, Ideal.cmpf_def]

/-- The result: the second layer's aggregated neighbourhood combined with its skip branch, entry by entry. -/
theorem v98_entry (x0 : (⟨S50000x4096, .f32⟩ : BufTy).Contents (Elt Ideal)) (x1 : (⟨S50000x64, .f32⟩ : BufTy).Contents (Elt Ideal)) (x2 : (⟨S256x4096, .f32⟩ : BufTy).Contents (Elt Ideal)) (x3 : (⟨S256, .f32⟩ : BufTy).Contents (Elt Ideal)) (x4 : (⟨S256x256, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal)) (x8 : (⟨S64, .f32⟩ : BufTy).Contents (Elt Ideal)) (x9 : (⟨S64x64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S2x800000, .i32⟩ : BufTy).Contents (Elt Ideal)) (r : Fin 50000) (c : Fin 64) :
    val_main_v98 (F := Ideal) x0 x1 x2 x3 x4 x5 x6 x7 x8 x9 x10 x11 x12 x13 x14 (ix2 r c) = combS (val_main_v71 (F := Ideal) x0 x1 x2 x3 x4 x5 x6 x7 x8 x9 x14) x12 x13 (val_main_v87 (F := Ideal) x0 x1 x2 x3 x4 x5 x6 x7 x8 x10 x11 x14) r c := by
  -- the product's left operand is read at row r, column k
  have hl : ∀ k : Fin 64, lidx_main_v89 (ix2 r c) k = ix2 r k := fun k => funext fun a => Fin.ext (by
    match a with
    | ⟨0, _⟩ => rfl
    | ⟨1, _⟩ => rfl)
  -- the transposed weight at (k, c) is the stored weight at (c, k)
  have hr : ∀ k : Fin 64, idx_main_v88 (ridx_main_v89 (ix2 r c) k) = ix2 c k := fun k => funext fun a => Fin.ext (by
    match a with
    | ⟨0, _⟩ => rfl
    | ⟨1, _⟩ => rfl)
  -- the bias, broadcast along the rows, is read at column c
  have hb : idx_main_v90 (idx_main_v91 (ix2 r c)) = ix1 c := funext fun a => Fin.ext (by
    match a with
    | ⟨0, _⟩ => rfl)
  rw [val_main_v98_apply, val_main_v95_apply, val_main_v97_apply, val_main_v93_apply, val_main_v92_apply, val_main_v89_apply, v76_eq]
  generalize val_main_v71 (F := Ideal) x0 x1 x2 x3 x4 x5 x6 x7 x8 x9 x14 = H
  generalize val_main_v87 (F := Ideal) x0 x1 x2 x3 x4 x5 x6 x7 x8 x10 x11 x14 = S
  simp only [val_main_v88_apply, val_main_v91_apply, val_main_v90_apply, val_main_v94_apply, val_main_cst_16_apply, val_main_v96_apply, val_main_cst_17_apply]
  unfold combS leaky
  simp only [hl, hr, hb, Ideal.addf_def, Ideal.mulf_def, Ideal.ofBits_def, Ideal.cmpf_def]

end Cert.ReferenceIdeal.StagesB

end
-- ==== Proof.KTakeRead.lean ====
/-
  The take of source rows, read off the host stretch that computes it.

  The stretch is twenty-three operations. Its first eight turn the source words into the column of start indices (a
  negative word moved up by the table's length). The next ten compute, per edge, whether the start index is a row
  number. The last five gather the rows, repeat the per-edge bit along the columns, and select the gathered row or the
  junk word. The fold of a concatenation of operation lists is the fold of the folds, and a piece leaves alone every
  buffer it does not write, so the stretch's result is the three pieces' functions composed: the take of rows of the
  table the stretch finds, at the source words it finds. Stated for any float family: nothing here computes a float.
-/
import proofs.«421336_j43198781063543_1_alg».proof.Proof.Gen.KernelIdeal.Frame
import proofs.«421336_j43198781063543_1_alg».proof.Proof.KTake
import Idealize.ShloMosaic.Lib.StableHlo.Run

set_option maxRecDepth 16384

noncomputable section

namespace Cert.KernelIdeal.TakeRead

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-- The first eight operations: the column of start indices. -/
abbrev opsIdx : List (HloOp τ sig (Elt F)) := (hostOps2 (F := F)).take 8
/-- The next ten: the per-edge in-bounds bit. -/
abbrev opsInb : List (HloOp τ sig (Elt F)) := ((hostOps2 (F := F)).drop 8).take 10
/-- The last five: the gather and the selection. -/
abbrev opsSel : List (HloOp τ sig (Elt F)) := (hostOps2 (F := F)).drop 18

set_option maxHeartbeats 4000000 in
theorem read_idx : (after (opsIdx (F := F)) V (Proc.devRef .tc main_call0_v5) : IVec S800000x1 32)
    = Cert.KernelIdeal.Take.idxCol (V (Proc.devRef .tc main_v1)) := by
  simp only [opsIdx, hostOps2, List.take_succ_cons, List.take_zero]
  after_results_simp <;> (try simp only [TRef.ofBuf, TRef.toBuf, cast_eq]) <;> rfl

set_option maxHeartbeats 4000000 in
theorem read_inb : (after (opsInb (F := F)) V (Proc.devRef .tc main_call0_v12) : IVec S800000 1)
    = Cert.KernelIdeal.Take.inb (V (Proc.devRef .tc main_call0_v5)) := by
  simp only [opsInb, hostOps2, List.drop_succ_cons, List.drop_zero, List.take_succ_cons, List.take_zero]
  after_results_simp <;> (try simp only [TRef.ofBuf, TRef.toBuf, cast_eq]) <;> rfl

set_option maxHeartbeats 4000000 in
theorem read_sel : (after (opsSel (F := F)) V (Proc.devRef .tc main_v11) : FVec F S800000x256 .f32)
    = select (broadcastInDim S800000x256 ![0] bcast_S800000_S800000x256_0 (V (Proc.devRef .tc main_call0_v12)))
        (Host.gather gather_S50000x256_S800000x1_S800000x256_1_0_n_n_0_1_1256 (V (Proc.devRef .tc main_v10)) (V (Proc.devRef .tc main_call0_v5)))
        (broadcastInDim S800000x256 ![] bcast_S_S800000x256 (constant S_ .f32 0x7FC00000#32)) := by
  simp only [opsSel, hostOps2, List.drop_succ_cons, List.drop_zero]
  after_results_simp <;> (try simp only [TRef.ofBuf, TRef.toBuf, cast_eq]) <;> rfl

/-! Buffers a piece does not write. -/

theorem idx_keeps_table : after (opsIdx (F := F)) V (Proc.devRef .tc main_v10) = V (Proc.devRef .tc main_v10) := by
  refine StableHlo.after_of_forall_not_mem _ _ (List.forall_iff_forall_mem.mp ?_)
  simp only [hostOps2, opsIdx, List.take_succ_cons, List.take_zero, List.Forall, StableHlo.nullary_writes, StableHlo.unary_writes, StableHlo.binary_writes,
    StableHlo.ternary_writes, Finset.mem_singleton]
  repeat' apply And.intro
  all_goals exact StableHlo.devRef_ne_of_ne (by decide)

theorem inb_keeps_table : after (opsInb (F := F)) V (Proc.devRef .tc main_v10) = V (Proc.devRef .tc main_v10) := by
  refine StableHlo.after_of_forall_not_mem _ _ (List.forall_iff_forall_mem.mp ?_)
  simp only [hostOps2, opsInb, List.drop_succ_cons, List.drop_zero, List.take_succ_cons, List.take_zero, List.Forall, StableHlo.nullary_writes, StableHlo.unary_writes, StableHlo.binary_writes,
    StableHlo.ternary_writes, Finset.mem_singleton]
  repeat' apply And.intro
  all_goals exact StableHlo.devRef_ne_of_ne (by decide)

theorem inb_keeps_idx : after (opsInb (F := F)) V (Proc.devRef .tc main_call0_v5) = V (Proc.devRef .tc main_call0_v5) := by
  refine StableHlo.after_of_forall_not_mem _ _ (List.forall_iff_forall_mem.mp ?_)
  simp only [hostOps2, opsInb, List.drop_succ_cons, List.drop_zero, List.take_succ_cons, List.take_zero, List.Forall, StableHlo.nullary_writes, StableHlo.unary_writes, StableHlo.binary_writes,
    StableHlo.ternary_writes, Finset.mem_singleton]
  repeat' apply And.intro
  all_goals exact StableHlo.devRef_ne_of_ne (by decide)

/-- The stretch is its three pieces in order. -/
theorem ops_split : (hostOps2 (F := F)) = opsIdx ++ (opsInb ++ opsSel) := by
  simp only [opsIdx, opsInb, opsSel, hostOps2, List.take_succ_cons, List.take_zero, List.drop_succ_cons, List.drop_zero,
    List.cons_append, List.nil_append]

/-- The stretch read at its result buffer: the take of rows of the table it finds, at the source words it finds. -/
theorem take_read : (after (hostOps2 (F := F)) V (Proc.devRef .tc main_v11) : FVec F S800000x256 .f32)
    = Cert.KernelIdeal.Take.take256 (V (Proc.devRef .tc main_v10)) (V (Proc.devRef .tc main_v1)) := by
  rw [ops_split, StableHlo.after_append, StableHlo.after_append, read_sel, read_inb, inb_keeps_table, inb_keeps_idx,
    idx_keeps_table, read_idx]
  rfl

end Cert.KernelIdeal.TakeRead

end
-- ==== Proof.KWalkB.lean ====
/-
  The kernel's arrays, boundary by boundary: the first layer's aggregation, skip branch and combination.

  After the first linear map the host takes a row of it per edge (the edge's source word names the row) and adds the taken
  rows into the rows their destination words name. Under the range property of the source words no taken row is
  replaced, so the take is the reference's gather of the same rows and the scatter-add, of the same rows at the same
  destinations from the same zeros, is the reference's: the aggregated neighbourhood is the reference's stage. The skip
  branch (region 2) and the combination (region 3) are then the reference's stages as for the first two regions.
-/
import proofs.«421336_j43198781063543_1_alg».proof.Proof.KCarry
import proofs.«421336_j43198781063543_1_alg».proof.Proof.KReg2
import proofs.«421336_j43198781063543_1_alg».proof.Proof.KReg3
import proofs.«421336_j43198781063543_1_alg».proof.Proof.RefStagesB
import proofs.«421336_j43198781063543_1_alg».proof.Proof.KTake
import proofs.«421336_j43198781063543_1_alg».proof.Proof.KTakeRead
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Walk

open Cert.KernelIdeal Cert.KernelIdeal.Gen Cert.Gnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first aggregation -/

theorem W5_v11_eq (c : Dev nD) : (W5 m ρ c (Proc.devRef .tc main_v11) : FVec Ideal S800000x256 .f32)
    = Cert.KernelIdeal.Take.take256 (F := Ideal) (W4 m ρ c (Proc.devRef .tc main_v10)) (W4 m ρ c (Proc.devRef .tc main_v1)) :=
  Cert.KernelIdeal.TakeRead.take_read (F := Ideal) (W4 m ρ c)

set_option maxHeartbeats 4000000 in
theorem W6_v14_eq (c : Dev nD) : (W6 m ρ c (Proc.devRef .tc main_v14) : FVec Ideal S50000x256 .f32)
    = Host.scatterAdd scatter_S50000x256_S800000x1_S800000x256_1_0_0_1
        (broadcastInDim S50000x256 ![] bcast_S_S50000x256 (constant (F := Ideal) S_ .f32 0x00000000#32))
        (broadcastInDim S800000x1 ![0] bcast_S800000_S800000x1_0 (W5 m ρ c (Proc.devRef .tc main_v3)))
        (W5 m ρ c (Proc.devRef .tc main_v11)) := by
  show StableHlo.after hostOps2_1 (W5 m ρ c) (Proc.devRef .tc main_v14) = _
  after_results_simp <;> rfl

/-- After the scatter-add the aggregated neighbourhood is the reference's: the same rows gathered, the same rows added. -/
theorem h1_eq (c : Dev nD) (hr : Cert.KernelIdeal.Take.InRange (Cert.KernelIdeal.Take.srcOf (m ((c.tc : Thread nD τ).loc main_arg14)))) :
    (W6 m ρ c (Proc.devRef .tc main_v14) : Mat 50000 256) = Cert.ReferenceIdeal.ReadP.val_main_v28 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) := by
  rw [W6_v14_eq, W5_v11_eq, W5_v3, W4_v1, W1_v1_eq, W1_v3_eq, xw1_eq, Cert.KernelIdeal.Take.take256_eq hr]
  rfl

/-! ## Region 2: the first skip branch -/

/-- At region 2's exit its output array holds the reference's first skip branch. -/
theorem xh1_eq (c : Dev nD) : (W7 m ρ c (Proc.devRef .tc main_v18) : Mat 50000 64)
    = Cert.ReferenceIdeal.ReadP.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  refine mat_ext fun r q => ?_
  rw [Cert.ReferenceIdeal.StagesB.v44_entry, ← x0_eq m ρ c]
  refine (congrFun (W7_arr m ρ c 4) (ix2 r q)).trans ((Cert.KernelIdeal.Region2.out_apply (V6 m ρ) c r q).trans ?_)
  show skipK (W6 m ρ c (Proc.devRef .tc main_v7)) (W6 m ρ c (Proc.devRef .tc main_v16)) (W6 m ρ c (Proc.devRef .tc main_v17)) (W6 m ρ c (Proc.devRef .tc main_arg1)) r q = _
  rw [W6_v7, W6_arg1]
  exact skipK_eq (W6_v16 m ρ c) (W6_v17 m ρ c) _ r q

/-! ## Region 3: the first combination -/

/-- At region 3's exit its output array holds the reference's first-layer output. -/
theorem x1_eq (c : Dev nD) (hr : Cert.KernelIdeal.Take.InRange (Cert.KernelIdeal.Take.srcOf (m ((c.tc : Thread nD τ).loc main_arg14)))) : (W9 m ρ c (Proc.devRef .tc main_v22) : Mat 50000 64)
    = Cert.ReferenceIdeal.ReadP.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) := by
  refine mat_ext fun r q => ?_
  rw [Cert.ReferenceIdeal.StagesB.v55_entry, ← h1_eq m ρ c hr, ← xh1_eq m ρ c]
  refine (congrFun (W9_arr m ρ c 4) (ix2 r q)).trans ((Cert.KernelIdeal.Region3.out_apply (V8 m ρ) c r q).trans ?_)
  show combK (W8 m ρ c (Proc.devRef .tc main_v14)) (W8 m ρ c (Proc.devRef .tc main_v20)) (W8 m ρ c (Proc.devRef .tc main_v21)) (W8 m ρ c (Proc.devRef .tc main_v18)) r q = _
  rw [W8_v14, W8_v18]
  exact combK_eq (W8_v20 m ρ c) (W8_v21 m ρ c) _ r q

end Cert.KernelIdeal.Walk

end
-- ==== Proof.KReg4.lean ====
import proofs.«421336_j43198781063543_1_alg».proof.Proof.Gen.KernelIdeal.Frame
import proofs.«421336_j43198781063543_1_alg».proof.Proof.Spec
import proofs.«421336_j43198781063543_1_alg».proof.Proof.LibDotPlain
import proofs.«421336_j43198781063543_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- The body's one store at an entry of the block: row `a` of the activations against column `b` of the weights, the
    matrix product into the zero accumulator with no rounding left (the narrowing to bf16 is the identity on the
    extended reals, and a reshape to the same shape moves nothing). -/
theorem pay_apply (x0 : Vec Ideal S2000x64 .f32) (x1 : Vec Ideal S64x64 .bf16) (a : Fin 2000) (b : Fin 64) :
    k4_pay1 x0 x1 (ix2 a b) = ∑ j : Fin 64, x0 (ix2 a j) * x1 (ix2 j b) := by
  unfold k4_pay1
  rw [shapeCast_self, shapeCast_self]
  exact Cert.LibDotPlain.matmul_zero_apply _ none _ _ a b

/-- The whole output array, entry by entry: row `r` of the activations against column `q` of the weights. -/
def G (c : Dev nD) : S50000x64.Idx → Elt Ideal .f32 := ofEntries (colDot (V c main_v22) (V c main_v24))

/-- The index maps over the grid: the activations' block moves with the output's, one block of 2000 rows a point (point
    `t` at block `t`), both at column block 0; the weights' block is the whole matrix at every point. -/
theorem idx_facts : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- Entry `(p, j)` of the activations' block at a point is the array's entry at column `j` of the row where the output's
    block has its row `p`: on each axis a block's coordinate is block index × block size + the coordinate inside. -/
theorem act_entry (c : Dev nD) (t : Fin cfg4.N) (p : Fin 2000) (q j : Fin 64) :
    iblk4 V c 0 t (ix2 p j) = V c main_v22 (ix2 ((((cfg4.win 2).blk t).view.emb (ix2 p q)) 0) j) := by
  obtain ⟨e0, e1, -, -, -, -⟩ := idx_facts t
  show V c main_v22 (((cfg4.win 0).blk t).view.emb (ix2 p j)) = _
  refine congrArg (V c main_v22) ?_
  funext a; apply Fin.ext
  match a with
  | ⟨0, _⟩ =>
    show win4_0.index t (0 : Fin 2) * 2000 + 1 * p.val = win4_2.index t (0 : Fin 2) * 2000 + 1 * p.val
    omega
  | ⟨1, _⟩ =>
    show win4_0.index t (1 : Fin 2) * 64 + 1 * j.val = j.val
    omega

/-- Entry `(j, q)` of the weights' block at a point is the matrix's entry at row `j` of the column where the output's block
    has its column `q`: the weights' block is the whole matrix and the output's blocks span every column. -/
theorem wt_entry (c : Dev nD) (t : Fin cfg4.N) (p : Fin 2000) (q j : Fin 64) :
    iblk4 V c 1 t (ix2 j q) = V c main_v24 (ix2 j ((((cfg4.win 2).blk t).view.emb (ix2 p q)) 1)) := by
  obtain ⟨-, -, e2, e3, e4, -⟩ := idx_facts t
  show V c main_v24 (((cfg4.win 1).blk t).view.emb (ix2 j q)) = _
  refine congrArg (V c main_v24) ?_
  funext a; apply Fin.ext
  match a with
  | ⟨0, _⟩ =>
    show win4_1.index t (0 : Fin 2) * 64 + 1 * j.val = j.val
    omega
  | ⟨1, _⟩ =>
    show win4_1.index t (1 : Fin 2) * 64 + 1 * q.val = win4_2.index t (1 : Fin 2) * 64 + 1 * q.val
    omega

/-- What a point writes back is its block of the product: the store's payload read at an entry is the sum over the
    contracted coordinate of the two input blocks' entries, and each of those is the array's entry the output block's
    position names. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x64) hz]
  funext y
  obtain ⟨p, q, rfl⟩ : ∃ (p : Fin 2000) (q : Fin 64), y = ix2 p q := ⟨y 0, y 1, eq_ix2 y⟩
  show k4_pay1 (iblk4 V c 0 t) (iblk4 V c 1 t) (ix2 p q) = G V c (((cfg4.win 2).blk t).view.emb (ix2 p q))
  rw [pay_apply]
  show _ = colDot (V c main_v22) (V c main_v24) _ _
  unfold colDot
  exact Finset.sum_congr rfl fun j _ => by rw [act_entry V c t p q j, wt_entry V c t p q j]

/-- An index of the array is in a point's block iff each coordinate is in the block's range on its axis. -/
theorem mem_blk (t : Fin cfg4.N) (i : S50000x64.Idx) :
    i ∈ ((cfg4.win 2).blk t).view.set ↔ ∀ a : Fin 2, win4_2.index t a * S2000x64.size a ≤ (i a).val
      ∧ (i a).val < win4_2.index t a * S2000x64.size a + S2000x64.size a := by
  show i ∈ ((View.whole main_v25).slice (win4_2.rect t)).set ↔ _
  rw [View.set_slice_whole, Rect.mem_set_unit]
  exact Iff.rfl

/-- Every entry of the array is written back by some point: row `r` by the point `r / 2000`, whose block holds the rows
    from `2000 · (r / 2000)` up to the next multiple and every column. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ : ∃ t : Fin cfg4.N, t.val = (i 0).val / 2000 :=
    ⟨⟨(i 0).val / 2000, lt_of_lt_of_eq (by omega : (i 0).val / 2000 < 25) N_4.symm⟩, rfl⟩
  obtain ⟨-, -, -, -, e4, e5⟩ := idx_facts t
  refine ⟨t, flush4_2 t, ?_⟩
  rw [mem_blk]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 64 ≤ (i 1).val ∧ (i 1).val < win4_2.index t (1 : Fin 2) * 64 + 64
    omega

/-- The output array after the last write-back is the product, whole: every point writes back its block of it, and the
    blocks cover the array. -/
theorem final (c : Dev nD) : (dat4 V c).arrAt 2 cfg4.N = G V c :=
  (dat4 V c).arrAt_eq_of_cover 2 (G V c) (fun t _ => flushed_eq V c t) cover

/-- Region 4's output array after its last write-back, entry by entry: the second layer's linear map, of the arrays as the region finds them. -/
theorem out_apply (c : Dev nD) (r : Fin 50000) (q : Fin 64) :
    (dat4 (F := Ideal) V c).arrAt 2 cfg4.N (ix2 r q) = colDot (V c main_v22) (V c main_v24) r q := by
  rw [final]
  rfl

end Cert.KernelIdeal.Region4

end
-- ==== Proof.KReg5.lean ====
import proofs.«421336_j43198781063543_1_alg».proof.Proof.Gen.KernelIdeal.Frame
import proofs.«421336_j43198781063543_1_alg».proof.Proof.Spec
import proofs.«421336_j43198781063543_1_alg».proof.Proof.LibDotPlain
import proofs.«421336_j43198781063543_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region5

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's store, entry by entry -/

/-- The block product at an entry: the row of the left block against the column of the right block. -/
theorem dot_apply (A : FVec Ideal S2000x64 .bf16) (B : FVec Ideal S64x64 .bf16) (a : Fin 2000) (b : Fin 64) :
    matmul dot_S2000x64_S64x64_S2000x64_1_0_0_1_n_n none A B (constant (F := Ideal) S2000x64 .f32 0x00000000#32) (ix2 a b)
      = ∑ c : Fin 64, A (ix2 a c) * B (ix2 c b) :=
  Cert.LibDotPlain.matmul_zero_apply dot_S2000x64_S64x64_S2000x64_1_0_0_1_n_n_wf none A B a b

/-- The body's one store at an entry of the block: the skip branch of the loaded blocks. The casts of a shape to itself and
    the narrowing of the activations are the identity on the extended reals, the bias row is repeated along the rows, and the
    comparison, the product with the slope and the selection are the leaky rectifier's own. -/
theorem pay_apply (x0 : FVec Ideal S2000x64 .f32) (x1 : FVec Ideal S64x64 .bf16) (x2 : FVec Ideal S1x64 .f32) (x3 : FVec Ideal S2000x64 .f32)
    (a : Fin 2000) (b : Fin 64) :
    k5_pay1 (F := Ideal) x0 x1 x2 x3 (ix2 a b) = skipK x0 x1 x2 x3 a b := by
  unfold k5_pay1
  simp only [shapeCast_self]
  rw [addf_apply, select_apply, cmpf_apply, mulf_apply, broadcast_apply, broadcast_apply, addf_apply,
    broadcastTo_1b_ab_apply, dot_apply]
  simp only [truncf_apply, Ideal.ofBits_def, Ideal.cmpf_def]
  rfl

/-! ## From the blocks to the arrays -/

/-- The zero offsets of a whole-block access, as a constant function. -/
theorem hz : (![0, 0] : Fin 2 → Nat) = fun _ => 0 := funext fun a => by fin_cases a <;> rfl

/-- The first layer's skip branch of the arrays as the region finds them, as one array. -/
def G (c : Dev nD) : Mat 50000 64 :=
  ofEntries (skipK (V c main_v22) (V c main_v31) (V c main_v32) (V c main_arg1))

/-- The index maps over the grid: the row-blocked windows (activations, identity embedding, output) sit at block row `t`,
    block column 0; the weight and the bias windows at block (0, 0); and the grid has 25 points. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 ∧ t.val < 25 :=
  (by decide +kernel : ∀ t : Fin grid5.N, _)

/-- Row `a` of block `t` is row `2000 t + a` of the array. -/
def rowOf (t : Fin cfg5.N) (a : Fin 2000) : Fin 50000 :=
  ⟨t.val * 2000 + a.val, by have := (idx_facts t).2.2.2.2.2.2.2.2.2.2; have := a.isLt; omega⟩

/-- Where an entry of the output's block lies in the output array: a block's coordinate is its block index times the
    block's extent plus the coordinate inside the block. -/
theorem emb_out (t : Fin cfg5.N) (a : Fin 2000) (b : Fin 64) :
    ((cfg5.win 4).blk t).view.emb (ix2 a b) = ix2 (rowOf t a) b := by
  obtain ⟨e0, e1, e2, e3, e4, e5, e6, e7, e8, e9, -⟩ := idx_facts t
  funext ax; apply Fin.ext
  match ax with
  | ⟨0, _⟩ => show win5_4.index t (0 : Fin 2) * 2000 + 1 * a.val = t.val * 2000 + a.val; omega
  | ⟨1, _⟩ => show win5_4.index t (1 : Fin 2) * 64 + 1 * b.val = b.val; omega

/-- The activations' block lies on the same rows, over all 64 columns. -/
theorem emb_act (t : Fin cfg5.N) (a : Fin 2000) (j : Fin 64) :
    ((cfg5.win 0).blk t).view.emb (ix2 a j) = ix2 (rowOf t a) j := by
  obtain ⟨e0, e1, e2, e3, e4, e5, e6, e7, e8, e9, -⟩ := idx_facts t
  funext ax; apply Fin.ext
  match ax with
  | ⟨0, _⟩ => show win5_0.index t (0 : Fin 2) * 2000 + 1 * a.val = t.val * 2000 + a.val; omega
  | ⟨1, _⟩ => show win5_0.index t (1 : Fin 2) * 64 + 1 * j.val = j.val; omega

/-- The weights' block is the whole weight matrix. -/
theorem emb_wt (t : Fin cfg5.N) (j : Fin 64) (b : Fin 64) :
    ((cfg5.win 1).blk t).view.emb (ix2 j b) = ix2 j b := by
  obtain ⟨e0, e1, e2, e3, e4, e5, e6, e7, e8, e9, -⟩ := idx_facts t
  funext ax; apply Fin.ext
  match ax with
  | ⟨0, _⟩ => show win5_1.index t (0 : Fin 2) * 64 + 1 * j.val = j.val; omega
  | ⟨1, _⟩ => show win5_1.index t (1 : Fin 2) * 64 + 1 * b.val = b.val; omega

/-- The bias' block is the whole bias row. -/
theorem emb_bias (t : Fin cfg5.N) (u : Fin 1) (b : Fin 64) :
    ((cfg5.win 2).blk t).view.emb (ix2 u b) = ix2 u b := by
  obtain ⟨e0, e1, e2, e3, e4, e5, e6, e7, e8, e9, -⟩ := idx_facts t
  funext ax; apply Fin.ext
  match ax with
  | ⟨0, _⟩ => show win5_2.index t (0 : Fin 2) * 1 + 1 * u.val = u.val; omega
  | ⟨1, _⟩ => show win5_2.index t (1 : Fin 2) * 64 + 1 * b.val = b.val; omega

/-- The identity embedding's block lies exactly where the output's does. -/
theorem emb_idn (t : Fin cfg5.N) (a : Fin 2000) (b : Fin 64) :
    ((cfg5.win 3).blk t).view.emb (ix2 a b) = ix2 (rowOf t a) b := by
  obtain ⟨e0, e1, e2, e3, e4, e5, e6, e7, e8, e9, -⟩ := idx_facts t
  funext ax; apply Fin.ext
  match ax with
  | ⟨0, _⟩ => show win5_3.index t (0 : Fin 2) * 2000 + 1 * a.val = t.val * 2000 + a.val; omega
  | ⟨1, _⟩ => show win5_3.index t (1 : Fin 2) * 64 + 1 * b.val = b.val; omega

/-- Each loaded block, entry by entry, is the entry of its array that the block's rectangle names. -/
theorem blk_act (c : Dev nD) (t : Fin cfg5.N) (a : Fin 2000) (j : Fin 64) :
    iblk5 (F := Ideal) V c 0 t (ix2 a j) = V c main_v22 (ix2 (rowOf t a) j) :=
  congrArg (V c main_v22) (emb_act t a j)

theorem blk_wt (c : Dev nD) (t : Fin cfg5.N) (j : Fin 64) (b : Fin 64) :
    iblk5 (F := Ideal) V c 1 t (ix2 j b) = V c main_v31 (ix2 j b) :=
  congrArg (V c main_v31) (emb_wt t j b)

theorem blk_bias (c : Dev nD) (t : Fin cfg5.N) (u : Fin 1) (b : Fin 64) :
    iblk5 (F := Ideal) V c 2 t (ix2 u b) = V c main_v32 (ix2 u b) :=
  congrArg (V c main_v32) (emb_bias t u b)

theorem blk_idn (c : Dev nD) (t : Fin cfg5.N) (a : Fin 2000) (b : Fin 64) :
    iblk5 (F := Ideal) V c 3 t (ix2 a b) = V c main_arg1 (ix2 (rowOf t a) b) :=
  congrArg (V c main_arg1) (emb_idn t a b)

/-- What grid point `t` writes back is block `t` of the skip branch of the arrays: the body's store is the skip branch of
    the loaded blocks, and each block's entry is its array's entry on row `2000 t + a`. -/
theorem flushed_eq (c : Dev nD) (t : Fin cfg5.N) :
    (dat5 (F := Ideal) V c).flushed 4 t = ((cfg5.win 4).blk t).view.read (Elt Ideal) (G V c) := by
  show (cfg5.win 4).cut (grid5.coords t) ((dat5 V c).after 4 t) = _
  rw [after5_4]
  unfold out5_4
  rw [View.canon_unit_zero hz]
  simp only [View.ld_unit_zero (S := S2000x64) hz, View.ld_unit_zero (S := S64x64) hz, View.ld_unit_zero (S := S1x64) hz, View.ld_unit_zero (S := S2000x64) hz]
  funext y
  obtain ⟨a, b, rfl⟩ : ∃ (a : Fin 2000) (b : Fin 64), y = ix2 a b := ⟨y 0, y 1, eq_ix2 y⟩
  show k5_pay1 (F := Ideal) (iblk5 V c 0 t) (iblk5 V c 1 t) (iblk5 V c 2 t) (iblk5 V c 3 t) (ix2 a b)
    = G V c (((cfg5.win 4).blk t).view.emb (ix2 a b))
  rw [pay_apply, emb_out]
  show _ = skipK (V c main_v22) (V c main_v31) (V c main_v32) (V c main_arg1) (rowOf t a) b
  unfold skipK colDot
  simp only [blk_act, blk_wt, blk_bias, blk_idn]

/-- An index of the array is in point `t`'s block iff each coordinate is in the block's range on its axis. -/
theorem mem_blk (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v33).slice (win5_4.rect t)).set ↔ _
  rw [View.set_slice_whole, Rect.mem_set_unit]
  exact Iff.rfl

/-- Every index of the array is in some writing point's block: row `r` is in block `r / 2000`, and 25 blocks of 2000 rows
    are the 50000 rows. -/
theorem cover (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : (i 0).val / 2000 < cfg5.N := by
    show (i 0).val / 2000 < grid5.N
    rw [N_5]; omega
  refine ⟨⟨(i 0).val / 2000, hN⟩, flush5_4 _, ?_⟩
  rw [mem_blk]
  obtain ⟨e0, e1, e2, e3, e4, e5, e6, e7, e8, e9, -⟩ := idx_facts ⟨(i 0).val / 2000, hN⟩
  intro a
  match a with
  | ⟨0, _⟩ =>
    show win5_4.index ⟨(i 0).val / 2000, hN⟩ (0 : Fin 2) * 2000 ≤ (i 0).val ∧ (i 0).val < win5_4.index ⟨(i 0).val / 2000, hN⟩ (0 : Fin 2) * 2000 + 2000
    rw [e8]
    show (i 0).val / 2000 * 2000 ≤ (i 0).val ∧ (i 0).val < (i 0).val / 2000 * 2000 + 2000
    omega
  | ⟨1, _⟩ =>
    show win5_4.index ⟨(i 0).val / 2000, hN⟩ (1 : Fin 2) * 64 ≤ (i 1).val ∧ (i 1).val < win5_4.index ⟨(i 0).val / 2000, hN⟩ (1 : Fin 2) * 64 + 64
    rw [e9]
    omega

/-- The output array after the last write-back is the skip branch of the arrays as the region finds them: every point writes
    its block of it back, and the blocks cover the array. -/
theorem final (c : Dev nD) : (dat5 (F := Ideal) V c).arrAt 4 cfg5.N = G V c :=
  (dat5 (F := Ideal) V c).arrAt_eq_of_cover 4 (G V c) (fun t _ => flushed_eq V c t) cover

/-- Region 5's output array after its last write-back, entry by entry: the second layer's skip branch, of the arrays as the region finds them. -/
theorem out_apply (c : Dev nD) (r : Fin 50000) (q : Fin 64) :
    (dat5 (F := Ideal) V c).arrAt 4 cfg5.N (ix2 r q) = skipK (V c main_v22) (V c main_v31) (V c main_v32) (V c main_arg1) r q := by
  rw [final]
  rfl

end Cert.KernelIdeal.Region5

end
-- ==== Proof.KReg6.lean ====
import proofs.«421336_j43198781063543_1_alg».proof.Proof.Gen.KernelIdeal.Frame
import proofs.«421336_j43198781063543_1_alg».proof.Proof.Spec
import proofs.«421336_j43198781063543_1_alg».proof.Proof.LibDotPlain
import proofs.«421336_j43198781063543_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region6

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's stored value at an entry -/

/-- The leaky rectifier, as the program writes it on a whole block (compare with the zero block, keep the entry or scale it by the
    slope block), read at one entry. -/
theorem leaky_at {s : Shape} (x : FVec Ideal s .f32) (i : s.Idx) :
    select (cmpf .oge x (broadcast s (Scalar.ofBits (F := Ideal) .f32 0x00000000#32))) x
        (mulf (broadcast s (Scalar.ofBits (F := Ideal) .f32 0x3C23D70A#32)) x) i = leaky (x i) := rfl

/-- The product of a [2000, 64] block with the [64, 64] weights into the zero accumulator, at (a, b): the sum over the 64
    contracted coordinates. -/
theorem dot_at (A : FVec Ideal S2000x64 .bf16) (B : FVec Ideal S64x64 .bf16) (a : Fin 2000) (b : Fin 64) :
    matmul dot_S2000x64_S64x64_S2000x64_1_0_0_1_n_n none A B (constant S2000x64 .f32 0x00000000#32) (ix2 a b)
      = ∑ c : Fin 64, A (ix2 a c) * B (ix2 c b) :=
  Cert.LibDotPlain.matmul_zero_apply dot_S2000x64_S64x64_S2000x64_1_0_0_1_n_n_wf none A B a b

/-- The body's one stored value at (a, b) is the combination formula of its four loaded blocks: the rectifier of the aggregated
    block entry by entry, its product with the weights, plus the bias row, plus the skip block, and the rectifier of that sum. The
    casts of a shape to itself are the identity and the change of format is the identity on the extended reals. -/
theorem pay_apply (x0 : FVec Ideal S2000x64 .f32) (x1 : FVec Ideal S64x64 .bf16) (x2 : FVec Ideal S1x64 .f32)
    (x3 : FVec Ideal S2000x64 .f32) (a : Fin 2000) (b : Fin 64) :
    k6_pay1 (F := Ideal) x0 x1 x2 x3 (ix2 a b) = combK x0 x1 x2 x3 a b := by
  unfold k6_pay1
  simp only [shapeCast_self]
  refine (leaky_at _ _).trans ?_
  unfold combK
  refine congrArg leaky ?_
  rw [addf_apply, addf_apply, broadcastTo_1b_ab_apply, dot_at]
  refine congrArg (· + x2 (ix2 0 b) + x3 (ix2 a b)) ?_
  exact Finset.sum_congr rfl fun c _ => rfl

/-! ## Where each block sits in its array -/

/-- The zero offset on both axes. -/
theorem zero_off : (![0, 0] : Fin 2 → Nat) = fun _ => 0 := funext fun a => by fin_cases a <;> rfl

/-- The index maps over the grid: at point t the row-blocked windows (aggregated input, skip input, output) sit at block (t, 0),
    the weight and bias windows at block (0, 0). -/
theorem block_index : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Row a of block t is row 2000·t + a of the array. -/
def rowOf (t : Fin cfg6.N) (a : Fin 2000) : Fin 50000 :=
  ⟨t.val * 2000 + a.val, by have ht : t.val < 25 := lt_of_lt_of_eq t.isLt N_6; have := a.isLt; omega⟩

/-- Entry (a, k) of the aggregated input's block t is entry (2000·t + a, k) of its array: block index times block size plus the
    coordinate inside the block, on each axis. -/
theorem emb_agg (t : Fin cfg6.N) (a : Fin 2000) (k : Fin 64) :
    ((cfg6.win 0).blk t).view.emb (ix2 a k) = ix2 (rowOf t a) k := by
  obtain ⟨e0, e1, -⟩ := block_index t
  funext ax; apply Fin.ext
  match ax with
  | ⟨0, _⟩ => show win6_0.index t (0 : Fin 2) * 2000 + 1 * a.val = t.val * 2000 + a.val; omega
  | ⟨1, _⟩ => show win6_0.index t (1 : Fin 2) * 64 + 1 * k.val = k.val; omega

/-- The weight window's block is its whole array at every point. -/
theorem emb_weight (t : Fin cfg6.N) (k : Fin 64) (b : Fin 64) :
    ((cfg6.win 1).blk t).view.emb (ix2 k b) = ix2 k b := by
  obtain ⟨-, -, e0, e1, -⟩ := block_index t
  funext ax; apply Fin.ext
  match ax with
  | ⟨0, _⟩ => show win6_1.index t (0 : Fin 2) * 64 + 1 * k.val = k.val; omega
  | ⟨1, _⟩ => show win6_1.index t (1 : Fin 2) * 64 + 1 * b.val = b.val; omega

/-- The bias window's block is its whole one-row array at every point. -/
theorem emb_bias (t : Fin cfg6.N) (u : Fin 1) (b : Fin 64) :
    ((cfg6.win 2).blk t).view.emb (ix2 u b) = ix2 u b := by
  obtain ⟨-, -, -, -, e0, e1, -⟩ := block_index t
  funext ax; apply Fin.ext
  match ax with
  | ⟨0, _⟩ => show win6_2.index t (0 : Fin 2) * 1 + 1 * u.val = u.val; omega
  | ⟨1, _⟩ => show win6_2.index t (1 : Fin 2) * 64 + 1 * b.val = b.val; omega

/-- Entry (a, b) of the skip input's block t is entry (2000·t + a, b) of its array. -/
theorem emb_skip (t : Fin cfg6.N) (a : Fin 2000) (b : Fin 64) :
    ((cfg6.win 3).blk t).view.emb (ix2 a b) = ix2 (rowOf t a) b := by
  obtain ⟨-, -, -, -, -, -, e0, e1, -⟩ := block_index t
  funext ax; apply Fin.ext
  match ax with
  | ⟨0, _⟩ => show win6_3.index t (0 : Fin 2) * 2000 + 1 * a.val = t.val * 2000 + a.val; omega
  | ⟨1, _⟩ => show win6_3.index t (1 : Fin 2) * 64 + 1 * b.val = b.val; omega

/-- Entry (a, b) of the output's block t is entry (2000·t + a, b) of its array. -/
theorem emb_out (t : Fin cfg6.N) (a : Fin 2000) (b : Fin 64) :
    ((cfg6.win 4).blk t).view.emb (ix2 a b) = ix2 (rowOf t a) b := by
  obtain ⟨-, -, -, -, -, -, -, -, e0, e1⟩ := block_index t
  funext ax; apply Fin.ext
  match ax with
  | ⟨0, _⟩ => show win6_4.index t (0 : Fin 2) * 2000 + 1 * a.val = t.val * 2000 + a.val; omega
  | ⟨1, _⟩ => show win6_4.index t (1 : Fin 2) * 64 + 1 * b.val = b.val; omega

/-! ## An entry of each input block is an entry of its array -/

/-- The aggregated input's block t at (a, k) reads the array at (2000·t + a, k). -/
theorem agg_apply (c : Dev nD) (t : Fin cfg6.N) (a : Fin 2000) (k : Fin 64) :
    iblk6 (F := Ideal) V c 0 t (ix2 a k) = V c main_v29 (ix2 (rowOf t a) k) := by
  show V c main_v29 (((cfg6.win 0).blk t).view.emb (ix2 a k)) = _
  rw [emb_agg]

/-- The weight block at (k, b) reads the weights at (k, b). -/
theorem weight_apply (c : Dev nD) (t : Fin cfg6.N) (k : Fin 64) (b : Fin 64) :
    iblk6 (F := Ideal) V c 1 t (ix2 k b) = V c main_v35 (ix2 k b) := by
  show V c main_v35 (((cfg6.win 1).blk t).view.emb (ix2 k b)) = _
  rw [emb_weight]

/-- The bias block at (u, b) reads the bias row at (u, b). -/
theorem bias_apply (c : Dev nD) (t : Fin cfg6.N) (u : Fin 1) (b : Fin 64) :
    iblk6 (F := Ideal) V c 2 t (ix2 u b) = V c main_v36 (ix2 u b) := by
  show V c main_v36 (((cfg6.win 2).blk t).view.emb (ix2 u b)) = _
  rw [emb_bias]

/-- The skip input's block t at (a, b) reads the array at (2000·t + a, b). -/
theorem skip_apply (c : Dev nD) (t : Fin cfg6.N) (a : Fin 2000) (b : Fin 64) :
    iblk6 (F := Ideal) V c 3 t (ix2 a b) = V c main_v33 (ix2 (rowOf t a) b) := by
  show V c main_v33 (((cfg6.win 3).blk t).view.emb (ix2 a b)) = _
  rw [emb_skip]

/-! ## What each point writes back -/

/-- The output array as one function of the arrays the region finds: the combination formula at every entry. -/
def combined (c : Dev nD) : Mat 50000 64 :=
  ofEntries (combK (V c main_v29) (V c main_v35) (V c main_v36) (V c main_v33))

/-- What the body leaves in the output window's buffer at point t: its one stored value, of the four input blocks (the one store
    covers the whole buffer, each load reads a whole block). -/
theorem stored_eq (c : Dev nD) (t : Fin cfg6.N) :
    (dat6 (F := Ideal) V c).after 4 t
      = k6_pay1 (F := Ideal) (iblk6 V c 0 t) (iblk6 V c 1 t) (iblk6 V c 2 t) (iblk6 V c 3 t) := by
  rw [after6_4]
  unfold out6_4
  rw [View.canon_unit_zero zero_off]
  simp only [View.ld_unit_zero (S := S2000x64) zero_off, View.ld_unit_zero (S := S64x64) zero_off,
    View.ld_unit_zero (S := S1x64) zero_off, View.ld_unit_zero (S := S2000x64) zero_off]

/-- The output's blocks all lie inside the array, so a write-back moves the whole buffer. -/
theorem writeback_whole (X : FVec Ideal S2000x64 .f32) (t : Fin cfg6.N) (j : S2000x64.Idx) :
    (cfg6.win 4).cut (grid6.coords t) X j = X j := rfl

/-- Block t of a whole [50000, 64] array, at (a, b), is the array at (2000·t + a, b). -/
theorem read_block (Gf : Mat 50000 64) (t : Fin cfg6.N) (a : Fin 2000) (b : Fin 64) :
    ((cfg6.win 4).blk t).view.read (Elt Ideal) Gf (ix2 a b) = Gf (ix2 (rowOf t a) b) := by
  show Gf (((cfg6.win 4).blk t).view.emb (ix2 a b)) = _
  rw [emb_out]

/-- The combination formula of the four blocks at point t is the formula of the four arrays at the block's rows: every block
    entry it reads is the array's entry at the same row of the array. -/
theorem comb_blocks (c : Dev nD) (t : Fin cfg6.N) (a : Fin 2000) (b : Fin 64) :
    combK (iblk6 (F := Ideal) V c 0 t) (iblk6 (F := Ideal) V c 1 t) (iblk6 (F := Ideal) V c 2 t) (iblk6 (F := Ideal) V c 3 t) a b
      = combK (V c main_v29) (V c main_v35) (V c main_v36) (V c main_v33) (rowOf t a) b := by
  unfold combK
  simp only [agg_apply V c t, weight_apply V c t, bias_apply V c t, skip_apply V c t]

/-- What point t writes back is block t of the whole-array function. -/
theorem flushed_eq (c : Dev nD) (t : Fin cfg6.N) :
    (dat6 (F := Ideal) V c).flushed 4 t = ((cfg6.win 4).blk t).view.read (Elt Ideal) (combined V c) := by
  show (cfg6.win 4).cut (grid6.coords t) ((dat6 (F := Ideal) V c).after 4 t) = _
  rw [stored_eq]
  refine funext fun (j : S2000x64.Idx) => ?_
  obtain ⟨a, b, rfl⟩ : ∃ (a : Fin 2000) (b : Fin 64), j = ix2 a b := ⟨j 0, j 1, eq_ix2 j⟩
  refine (writeback_whole _ t (ix2 a b)).trans
    (((pay_apply _ _ _ _ a b).trans ?_).trans (read_block (combined V c) t a b).symm)
  exact comb_blocks V c t a b

/-! ## The blocks tile the array -/

/-- An index of the output array is in point t's block iff each coordinate is in the block's range on its axis. -/
theorem mem_blk (t : Fin cfg6.N) (i : S50000x64.Idx) :
    i ∈ ((cfg6.win 4).blk t).view.set ↔ ∀ a : Fin 2, win6_4.index t a * S2000x64.size a ≤ (i a).val
      ∧ (i a).val < win6_4.index t a * S2000x64.size a + S2000x64.size a := by
  show i ∈ ((View.whole main_v37).slice (win6_4.rect t)).set ↔ _
  rw [View.set_slice_whole, Rect.mem_set_unit]
  exact Iff.rfl

/-- Every entry of the output array is written back by some point: row r by point r / 2000, which is below 25 as r is below
    50000, and 2000·(r / 2000) ≤ r < 2000·(r / 2000) + 2000. -/
theorem cover (i : S50000x64.Idx) :
    ∃ t : Fin cfg6.N, (cfg6.win 4).flush t = true ∧ i ∈ ((cfg6.win 4).blk t).view.set := by
  have hi0 : (i 0).val < 50000 := (i 0).isLt
  have hi1 : (i 1).val < 64 := (i 1).isLt
  obtain ⟨t, ht⟩ : ∃ t : Fin cfg6.N, t.val = (i 0).val / 2000 :=
    ⟨⟨(i 0).val / 2000, lt_of_lt_of_eq (by omega : (i 0).val / 2000 < 25) N_6.symm⟩, rfl⟩
  obtain ⟨-, -, -, -, -, -, -, -, e0, e1⟩ := block_index t
  refine ⟨t, flush6_4 t, ?_⟩
  rw [mem_blk]
  intro a
  match a with
  | ⟨0, _⟩ =>
    show win6_4.index t (0 : Fin 2) * 2000 ≤ (i 0).val ∧ (i 0).val < win6_4.index t (0 : Fin 2) * 2000 + 2000
    omega
  | ⟨1, _⟩ =>
    show win6_4.index t (1 : Fin 2) * 64 ≤ (i 1).val ∧ (i 1).val < win6_4.index t (1 : Fin 2) * 64 + 64
    omega

/-- The output array after the last write-back is the whole-array function: every point writes back its block of it, and the
    blocks cover the array. -/
theorem array_eq (c : Dev nD) : (dat6 (F := Ideal) V c).arrAt 4 cfg6.N = combined V c :=
  (dat6 (F := Ideal) V c).arrAt_eq_of_cover 4 (combined V c) (fun t _ => flushed_eq V c t) cover

/-- Region 6's output array after its last write-back, entry by entry: the second layer's combination: the network's result, of the arrays as the region finds them. -/
theorem out_apply (c : Dev nD) (r : Fin 50000) (q : Fin 64) :
    (dat6 (F := Ideal) V c).arrAt 4 cfg6.N (ix2 r q) = combK (V c main_v29) (V c main_v35) (V c main_v36) (V c main_v33) r q := by
  rw [array_eq]
  rfl

end Cert.KernelIdeal.Region6

end
-- ==== Proof.KTakeRead2.lean ====
/-
  The take of source rows, read off the host stretch that computes it.

  The stretch is twenty-three operations. Its first eight turn the source words into the column of start indices (a
  negative word moved up by the table's length). The next ten compute, per edge, whether the start index is a row
  number. The last five gather the rows, repeat the per-edge bit along the columns, and select the gathered row or the
  junk word. The fold of a concatenation of operation lists is the fold of the folds, and a piece leaves alone every
  buffer it does not write, so the stretch's result is the three pieces' functions composed: the take of rows of the
  table the stretch finds, at the source words it finds. Stated for any float family: nothing here computes a float.
-/
import proofs.«421336_j43198781063543_1_alg».proof.Proof.Gen.KernelIdeal.Frame
import proofs.«421336_j43198781063543_1_alg».proof.Proof.KTake
import Idealize.ShloMosaic.Lib.StableHlo.Run

set_option maxRecDepth 16384

noncomputable section

namespace Cert.KernelIdeal.TakeRead2

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-- The first eight operations: the column of start indices. -/
abbrev opsIdx : List (HloOp τ sig (Elt F)) := (hostOps5 (F := F)).take 8
/-- The next ten: the per-edge in-bounds bit. -/
abbrev opsInb : List (HloOp τ sig (Elt F)) := ((hostOps5 (F := F)).drop 8).take 10
/-- The last five: the gather and the selection. -/
abbrev opsSel : List (HloOp τ sig (Elt F)) := (hostOps5 (F := F)).drop 18

set_option maxHeartbeats 4000000 in
theorem read_idx : (after (opsIdx (F := F)) V (Proc.devRef .tc main_call1_v5) : IVec S800000x1 32)
    = Cert.KernelIdeal.Take.idxCol (V (Proc.devRef .tc main_v1)) := by
  simp only [opsIdx, hostOps5, List.take_succ_cons, List.take_zero]
  after_results_simp <;> (try simp only [TRef.ofBuf, TRef.toBuf, cast_eq]) <;> rfl

set_option maxHeartbeats 4000000 in
theorem read_inb : (after (opsInb (F := F)) V (Proc.devRef .tc main_call1_v12) : IVec S800000 1)
    = Cert.KernelIdeal.Take.inb (V (Proc.devRef .tc main_call1_v5)) := by
  simp only [opsInb, hostOps5, List.drop_succ_cons, List.drop_zero, List.take_succ_cons, List.take_zero]
  after_results_simp <;> (try simp only [TRef.ofBuf, TRef.toBuf, cast_eq]) <;> rfl

set_option maxHeartbeats 4000000 in
theorem read_sel : (after (opsSel (F := F)) V (Proc.devRef .tc main_v26) : FVec F S800000x64 .f32)
    = select (broadcastInDim S800000x64 ![0] bcast_S800000_S800000x64_0 (V (Proc.devRef .tc main_call1_v12)))
        (Host.gather gather_S50000x64_S800000x1_S800000x64_1_0_n_n_0_1_164 (V (Proc.devRef .tc main_v25)) (V (Proc.devRef .tc main_call1_v5)))
        (broadcastInDim S800000x64 ![] bcast_S_S800000x64 (constant S_ .f32 0x7FC00000#32)) := by
  simp only [opsSel, hostOps5, List.drop_succ_cons, List.drop_zero]
  after_results_simp <;> (try simp only [TRef.ofBuf, TRef.toBuf, cast_eq]) <;> rfl

/-! Buffers a piece does not write. -/

theorem idx_keeps_table : after (opsIdx (F := F)) V (Proc.devRef .tc main_v25) = V (Proc.devRef .tc main_v25) := by
  refine StableHlo.after_of_forall_not_mem _ _ (List.forall_iff_forall_mem.mp ?_)
  simp only [hostOps5, opsIdx, List.take_succ_cons, List.take_zero, List.Forall, StableHlo.nullary_writes, StableHlo.unary_writes, StableHlo.binary_writes,
    StableHlo.ternary_writes, Finset.mem_singleton]
  repeat' apply And.intro
  all_goals exact StableHlo.devRef_ne_of_ne (by decide)

theorem inb_keeps_table : after (opsInb (F := F)) V (Proc.devRef .tc main_v25) = V (Proc.devRef .tc main_v25) := by
  refine StableHlo.after_of_forall_not_mem _ _ (List.forall_iff_forall_mem.mp ?_)
  simp only [hostOps5, opsInb, List.drop_succ_cons, List.drop_zero, List.take_succ_cons, List.take_zero, List.Forall, StableHlo.nullary_writes, StableHlo.unary_writes, StableHlo.binary_writes,
    StableHlo.ternary_writes, Finset.mem_singleton]
  repeat' apply And.intro
  all_goals exact StableHlo.devRef_ne_of_ne (by decide)

theorem inb_keeps_idx : after (opsInb (F := F)) V (Proc.devRef .tc main_call1_v5) = V (Proc.devRef .tc main_call1_v5) := by
  refine StableHlo.after_of_forall_not_mem _ _ (List.forall_iff_forall_mem.mp ?_)
  simp only [hostOps5, opsInb, List.drop_succ_cons, List.drop_zero, List.take_succ_cons, List.take_zero, List.Forall, StableHlo.nullary_writes, StableHlo.unary_writes, StableHlo.binary_writes,
    StableHlo.ternary_writes, Finset.mem_singleton]
  repeat' apply And.intro
  all_goals exact StableHlo.devRef_ne_of_ne (by decide)

/-- The stretch is its three pieces in order. -/
theorem ops_split : (hostOps5 (F := F)) = opsIdx ++ (opsInb ++ opsSel) := by
  simp only [opsIdx, opsInb, opsSel, hostOps5, List.take_succ_cons, List.take_zero, List.drop_succ_cons, List.drop_zero,
    List.cons_append, List.nil_append]

/-- The stretch read at its result buffer: the take of rows of the table it finds, at the source words it finds. -/
theorem take_read : (after (hostOps5 (F := F)) V (Proc.devRef .tc main_v26) : FVec F S800000x64 .f32)
    = Cert.KernelIdeal.Take.take64 (V (Proc.devRef .tc main_v25)) (V (Proc.devRef .tc main_v1)) := by
  rw [ops_split, StableHlo.after_append, StableHlo.after_append, read_sel, read_inb, inb_keeps_table, inb_keeps_idx,
    idx_keeps_table, read_idx]
  rfl

end Cert.KernelIdeal.TakeRead2

end
-- ==== Proof.KWalkC.lean ====
/-
  The kernel's arrays, boundary by boundary: the second layer, down to the result.

  The second layer repeats the first over 64 input features: the linear map of the first layer's output (region 4), the
  take of its rows per edge and the scatter-add over the destinations, the skip branch (region 5) and the combination
  (region 6), whose output array is the program's result. Each is the reference's stage of the launch arguments, so the
  result buffer after the last write-back holds the reference's last stage.
-/
import proofs.«421336_j43198781063543_1_alg».proof.Proof.KWalkB
import proofs.«421336_j43198781063543_1_alg».proof.Proof.KReg4
import proofs.«421336_j43198781063543_1_alg».proof.Proof.KReg5
import proofs.«421336_j43198781063543_1_alg».proof.Proof.KReg6
import proofs.«421336_j43198781063543_1_alg».proof.Proof.RefStagesA
import proofs.«421336_j43198781063543_1_alg».proof.Proof.RefStagesB
import proofs.«421336_j43198781063543_1_alg».proof.Proof.KTake
import proofs.«421336_j43198781063543_1_alg».proof.Proof.KTakeRead2
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Walk

open Cert.KernelIdeal Cert.KernelIdeal.Gen Cert.Gnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Region 4: the second linear map -/

/-- At region 4's exit its output array holds the reference's second linear map. -/
theorem xw2_eq (c : Dev nD) (hr : Cert.KernelIdeal.Take.InRange (Cert.KernelIdeal.Take.srcOf (m ((c.tc : Thread nD τ).loc main_arg14)))) : (W11 m ρ c (Proc.devRef .tc main_v25) : Mat 50000 64)
    = Cert.ReferenceIdeal.ReadP.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) := by
  refine mat_ext fun r q => ?_
  rw [Cert.ReferenceIdeal.StagesA.v57_entry, ← x1_eq m ρ c hr]
  refine (congrFun (W11_arr m ρ c 2) (ix2 r q)).trans ((Cert.KernelIdeal.Region4.out_apply (V10 m ρ) c r q).trans ?_)
  show colDot (W10 m ρ c (Proc.devRef .tc main_v22)) (W10 m ρ c (Proc.devRef .tc main_v24)) r q = _
  rw [W10_v22]
  exact colDot_eq_rowDot (W10_v24 m ρ c) r q

/-! ## The second aggregation -/

theorem W12_v26_eq (c : Dev nD) : (W12 m ρ c (Proc.devRef .tc main_v26) : FVec Ideal S800000x64 .f32)
    = Cert.KernelIdeal.Take.take64 (F := Ideal) (W11 m ρ c (Proc.devRef .tc main_v25)) (W11 m ρ c (Proc.devRef .tc main_v1)) :=
  Cert.KernelIdeal.TakeRead2.take_read (F := Ideal) (W11 m ρ c)

set_option maxHeartbeats 4000000 in
theorem W13_v29_eq (c : Dev nD) : (W13 m ρ c (Proc.devRef .tc main_v29) : FVec Ideal S50000x64 .f32)
    = Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0 (W12 m ρ c (Proc.devRef .tc main_v3)))
        (W12 m ρ c (Proc.devRef .tc main_v26)) := by
  show StableHlo.after hostOps5_1 (W12 m ρ c) (Proc.devRef .tc main_v29) = _
  after_results_simp <;> rfl

/-- After the second scatter-add the aggregated neighbourhood is the reference's. -/
theorem h2_eq (c : Dev nD) (hr : Cert.KernelIdeal.Take.InRange (Cert.KernelIdeal.Take.srcOf (m ((c.tc : Thread nD τ).loc main_arg14)))) :
    (W13 m ρ c (Proc.devRef .tc main_v29) : Mat 50000 64) = Cert.ReferenceIdeal.ReadP.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) := by
  rw [W13_v29_eq, W12_v26_eq, W12_v3, W11_v1, W1_v1_eq, W1_v3_eq, xw2_eq m ρ c hr, Cert.KernelIdeal.Take.take64_eq hr]
  rfl

/-! ## Region 5: the second skip branch -/

/-- At region 5's exit its output array holds the reference's second skip branch. -/
theorem xh2_eq (c : Dev nD) (hr : Cert.KernelIdeal.Take.InRange (Cert.KernelIdeal.Take.srcOf (m ((c.tc : Thread nD τ).loc main_arg14)))) : (W14 m ρ c (Proc.devRef .tc main_v33) : Mat 50000 64)
    = Cert.ReferenceIdeal.ReadP.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg14)) := by
  refine mat_ext fun r q => ?_
  rw [Cert.ReferenceIdeal.StagesB.v87_entry, ← x1_eq m ρ c hr]
  refine (congrFun (W14_arr m ρ c 4) (ix2 r q)).trans ((Cert.KernelIdeal.Region5.out_apply (V13 m ρ) c r q).trans ?_)
  show skipK (W13 m ρ c (Proc.devRef .tc main_v22)) (W13 m ρ c (Proc.devRef .tc main_v31)) (W13 m ρ c (Proc.devRef .tc main_v32)) (W13 m ρ c (Proc.devRef .tc main_arg1)) r q = _
  rw [W13_v22, W13_arg1]
  exact skipK_eq (W13_v31 m ρ c) (W13_v32 m ρ c) _ r q

/-! ## Region 6: the result -/

/-- At the last boundary the result buffer holds the reference's last stage of the launch arguments. -/
theorem result_eq (c : Dev nD) (hr : Cert.KernelIdeal.Take.InRange (Cert.KernelIdeal.Take.srcOf (m ((c.tc : Thread nD τ).loc main_arg14)))) : (W16 m ρ c (Proc.devRef .tc main_v37) : Mat 50000 64)
    = Cert.ReferenceIdeal.ReadP.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine mat_ext fun r q => ?_
  rw [Cert.ReferenceIdeal.StagesB.v98_entry, ← h2_eq m ρ c hr, ← xh2_eq m ρ c hr]
  refine (congrFun (W16_arr m ρ c 4) (ix2 r q)).trans ((Cert.KernelIdeal.Region6.out_apply (V15 m ρ) c r q).trans ?_)
  show combK (W15 m ρ c (Proc.devRef .tc main_v29)) (W15 m ρ c (Proc.devRef .tc main_v35)) (W15 m ρ c (Proc.devRef .tc main_v36)) (W15 m ρ c (Proc.devRef .tc main_v33)) r q = _
  rw [W15_v29, W15_v33]
  exact combK_eq (W15_v35 m ρ c) (W15_v36 m ρ c) _ r q

end Cert.KernelIdeal.Walk

end
-- ==== Proof.RefRun.lean ====
/-
  The reference's run, read. Every weakly fair execution of the reference's @main terminates with each buffer at the
  fold of its 119 host operations over the launch contents. Read at the result buffer, that fold is the last stage of
  the stage-by-stage reading of the program — the value the last operation writes, as a function of the fifteen
  arguments' launch contents — because each stage is by definition its operation applied to the stages of its
  operands; read at an argument, which no operation writes, it is the launch contents.
-/
import proofs.«421336_j43198781063543_1_alg».proof.Proof.RefRunP
import proofs.«421336_j43198781063543_1_alg».proof.Proof.RefReadP

noncomputable section

namespace Cert.ReferenceIdeal.RunRead

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 8192 in
set_option maxHeartbeats 47600000 in
/-- What the operations' fold leaves in the result buffer: the last stage, of the arguments' launch contents. -/
theorem after_result (m : (ℓ : Loc nD τ sig) → Buf (Elt F) ℓ) (c : Dev nD) :
    after (ops (F := F)) (launchContents m c) (Proc.devRef .tc main_v98)
      = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  after_results_simp <;> rfl

set_option maxRecDepth 8192 in
set_option maxHeartbeats 47600000 in
/-- The run: the result buffer ends at the last stage of the arguments' launch contents, each argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v98).trans (after_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_fold m ρ)

end Cert.ReferenceIdeal.RunRead

end
-- ==== Proof.lean ====
/-
  The certificate: a two-layer graph network computed by seven matrix-unit kernels with the edge gather and scatter-add
  on the host, against its plain array reference, over the extended reals.

  The network: a projection of the node features, each row divided by its Euclidean norm kept away from zero; then twice
  a linear map, a sum over each node's incoming edges of the source nodes' rows, a skip branch with a leaky rectifier and
  the identity embedding, and a combination of the rectified sum with the skip branch. The kernel program tiles every
  dense step over blocks of rows (a block of rows of a product depends only on the same rows of the left factor, so the
  blocks tile the product) with weights transposed and narrowed to bf16 beforehand — both the identity on exact values —
  and the reference does the same arithmetic on whole arrays: entry by entry the two are the same formulas, with the
  same constants as binary words, so no algebraic law beyond the reading of a product as a sum is needed and finiteness
  of the inputs is never used. The one place the programs differ is a source index outside the table: the kernel's take
  of rows replaces such a row by a junk word where the reference's indexing clamps; the precondition's conjunct
  −50000 ≤ source < 50000 (the range in which indexing 50000 rows from either end is defined) excludes exactly that, and
  under it the take is the reference's gather.

  The three runs: the two kernel programs' frames are the generated ones; the idealized kernel's run with its result
  named is the same launch read at the result buffer, whose contents are followed boundary by boundary down to the
  reference's last stage of the launch arguments; the reference's run is its operations' fold read at the result.
  The idealization rewrote nothing, so what it preserves is trivially true.
-/
import proofs.«421336_j43198781063543_1_alg».proof.Defs
import proofs.«421336_j43198781063543_1_alg».proof.Proof.Gen.Kernel
import proofs.«421336_j43198781063543_1_alg».proof.Proof.Gen.Kernel.Skeleton
import proofs.«421336_j43198781063543_1_alg».proof.Proof.Gen.Kernel.Launch
import proofs.«421336_j43198781063543_1_alg».proof.Proof.Gen.Kernel.Points
import proofs.«421336_j43198781063543_1_alg».proof.Proof.Gen.Kernel.Frame
import proofs.«421336_j43198781063543_1_alg».proof.Proof.Gen.KernelIdeal
import proofs.«421336_j43198781063543_1_alg».proof.Proof.Gen.KernelIdeal.Skeleton
import proofs.«421336_j43198781063543_1_alg».proof.Proof.Gen.KernelIdeal.Launch
import proofs.«421336_j43198781063543_1_alg».proof.Proof.Gen.KernelIdeal.Points
import proofs.«421336_j43198781063543_1_alg».proof.Proof.Gen.KernelIdeal.Frame
import proofs.«421336_j43198781063543_1_alg».proof.Proof.Gen.ReferenceIdeal
import proofs.«421336_j43198781063543_1_alg».proof.Proof.Gen.Pre_finite_inputs
import proofs.«421336_j43198781063543_1_alg».proof.Proof.KRun
import proofs.«421336_j43198781063543_1_alg».proof.Proof.KTake
import proofs.«421336_j43198781063543_1_alg».proof.Proof.KWalkC
import proofs.«421336_j43198781063543_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunRead.run (F := Ideal) m ρ)

/-- Both programs end with the result buffer at the reference's last stage of the kernel's launch arguments: the kernel
    by its run and the boundary-by-boundary reading of its arrays under the range of the source words the precondition
    states, the reference by its run at arguments that agree with the kernel's. -/
theorem algebraic : Cert.algebraic_KernelIdeal_ReferenceIdeal := by
  intro m ρ m' ρ' hpre hagree
  refine ⟨fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Walk.result_eq m ρ c (Cert.KernelIdeal.Take.inRange_of_pre m hpre c)), (h c).2⟩)
      (Cert.KernelIdeal.Gen.run_value m ρ)
  · refine (θ_run Cert.ReferenceIdeal.defs _ _).mono (fun r h c => ⟨?_, (h c).2⟩)
      (Cert.ReferenceIdeal.RunRead.run (F := Ideal) m' ρ')
    obtain ⟨e0, e1, e2, e3, e4, e5, e6, e7, e8, e9, e10, e11, e12, e13, e14⟩ := hagree c
    rw [(h c).1, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
